-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256 .f32) (main_arg5 : FVec F S256 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 60
  | .vmem => 29
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S_, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S50000x256, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_0) S1x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_1) S1x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S1x256, .f32⟩
  | .hbm, ⟨27, _⟩ => ⟨S50000x256, .f32⟩
  | .hbm, ⟨28, _⟩ => ⟨S50000x256, .f32⟩
  | .hbm, ⟨29, _⟩ => ⟨S_, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_v0 : Ref sig .tc := ⟨.hbm, 79, rfl⟩
abbrev main_call1_cst : Ref sig .tc := ⟨.hbm, 80, rfl⟩
abbrev main_call1_v1 : Ref sig .tc := ⟨.hbm, 81, rfl⟩
abbrev main_call1_v2 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  What the two programs compute, as mathematics over the extended reals.

  A two-layer graph convolution with a batch normalisation between the layers and a row normalisation at the end:
    h   = A₁ (x · W₁) + b₁                      (A₁: the neighbour aggregation, the same map in both programs)
    μ_c = (Σ_r h_rc) / n,  v_c = the variance of column c,  s_c = (v_c + ε)^(-1/2)
    p   = max (((h - μ) · s) · γ + β, 0)
    g   = A₂ (p · W₂) + b₂
    out_rc = g_rc / max (sqrt (Σ_c' g_rc'²), tiny)
  The two programs differ in ONE place: the variance is E[h²] - μ² on one side (`varMoments`) and E[(h - μ)²] on the
  other (`varCentred`). Everything else is the same arithmetic, so the result is stated once, parametrised by the
  variance formula (`outWith`). The aggregations A₁, A₂ are parameters: nothing here opens them.
  Float literals stay the words they are printed as; only the count n = 50000 is ever evaluated (in the algebra).
-/
import Idealize.ShloMosaic.PureOps.Ideal
import Idealize.ShloMosaic.Lib.ValueIdx

noncomputable section

namespace Cert.Spec

open Idealize.ShloMosaic Idealize.ShloMosaic.ValueIdx

/-- A matrix of extended reals, indexed as the programs index their rank-2 arrays. -/
abbrev Arr2 (a b : Nat) : Type := (⟨2, ![a, b]⟩ : Shape).Idx → EReal
/-- A vector of extended reals, indexed as the programs index their rank-1 arrays. -/
abbrev Arr1 (a : Nat) : Type := (⟨1, ![a]⟩ : Shape).Idx → EReal

/-- The row of a rank-2 index, as a plain `Fin`. -/
abbrev row {a b : Nat} (i : (⟨2, ![a, b]⟩ : Shape).Idx) : Fin a := ⟨(i 0).val, idx2_lt0 i⟩
/-- The column of a rank-2 index, as a plain `Fin`. -/
abbrev col {a b : Nat} (i : (⟨2, ![a, b]⟩ : Shape).Idx) : Fin b := ⟨(i 1).val, idx2_lt1 i⟩

/-- The number of rows, 50000, as the f32 word both programs divide by. -/
abbrev cN : EReal := Ideal.ofBits .f32 0x47435000#32
/-- The batch normalisation's ε (the f32 nearest 1e-5), as printed. -/
abbrev cEps : EReal := Ideal.ofBits .f32 0x3727C5AC#32
/-- The row normalisation's floor (the f32 nearest 1e-12), as printed. -/
abbrev cTiny : EReal := Ideal.ofBits .f32 0x2B8CBCCC#32

/-- The matrix product: entry (r, c) is Σ_k x (r, k) · w (k, c). -/
def mm {M K N : Nat} (x : Arr2 M K) (w : Arr2 K N) : Arr2 M N :=
  fun i => ∑ k : Fin K, x (ix2 (row i) k) * w (ix2 k (col i))

theorem mm_ix2 {M K N : Nat} (x : Arr2 M K) (w : Arr2 K N) (p : Fin M) (q : Fin N) :
    mm x w (ix2 p q) = ∑ k : Fin K, x (ix2 p k) * w (ix2 k q) := rfl

/-- A matrix plus a bias per column, by coordinates. -/
def addBias {R C : Nat} (a : Arr2 R C) (b : Fin C → EReal) : Fin R → Fin C → EReal := fun r c => a (ix2 r c) + b c

/-- The sum of a column. -/
def colSum {R C : Nat} (f : Fin R → Fin C → EReal) (c : Fin C) : EReal := ∑ r : Fin R, f r c

/-- The mean of a column: its sum over the row count. -/
def meanOf {R C : Nat} (f : Fin R → Fin C → EReal) (c : Fin C) : EReal := Ideal.div (colSum f c) cN

/-- The variance as the mean of the squares less the square of the mean. -/
def varMoments {R C : Nat} (f : Fin R → Fin C → EReal) (c : Fin C) : EReal :=
  Ideal.div (colSum (fun r c => f r c * f r c) c) cN - meanOf f c * meanOf f c

/-- The variance as the mean of the squared deviations from the mean. -/
def varCentred {R C : Nat} (f : Fin R → Fin C → EReal) (c : Fin C) : EReal :=
  Ideal.div (colSum (fun r c => (f r c - meanOf f c) * (f r c - meanOf f c)) c) cN

/-- The reciprocal standard deviation of a column from its variance. -/
def invStd {C : Nat} (v : Fin C → EReal) (c : Fin C) : EReal := Ideal.rsqrt (v c + cEps)

/-- Normalise, scale, shift, clamp at zero. -/
def bnRelu {R C : Nat} (f : Fin R → Fin C → EReal) (mean istd gamma beta : Fin C → EReal) (r : Fin R) (c : Fin C) : EReal :=
  max ((((f r c - mean c) * istd c) * gamma c) + beta c) 0

/-- A function of coordinates as a matrix. -/
def toArr {R C : Nat} (f : Fin R → Fin C → EReal) : Arr2 R C := fun i => f (row i) (col i)

theorem toArr_ix2 {R C : Nat} (f : Fin R → Fin C → EReal) (r : Fin R) (c : Fin C) : toArr f (ix2 r c) = f r c := rfl

/-- The Euclidean norm of a row, floored at `cTiny`. -/
def rowNorm {R C : Nat} (f : Fin R → Fin C → EReal) (r : Fin R) : EReal :=
  max (Ideal.sqrt (∑ c : Fin C, f r c * f r c)) cTiny

/-- Each row over its floored norm. -/
def l2rows {R C : Nat} (f : Fin R → Fin C → EReal) : Arr2 R C := fun i => Ideal.div (f (row i) (col i)) (rowNorm f (row i))

theorem l2rows_ix2 {R C : Nat} (f : Fin R → Fin C → EReal) (r : Fin R) (c : Fin C) :
    l2rows f (ix2 r c) = Ideal.div (f r c) (rowNorm f r) := rfl

/-- The hidden features after the batch normalisation and the clamp, for a given variance formula `var`. -/
def hiddenWith {R C : Nat} (var : (Fin R → Fin C → EReal) → Fin C → EReal) (h : Fin R → Fin C → EReal)
    (gamma beta : Fin C → EReal) : Fin R → Fin C → EReal :=
  bnRelu h (meanOf h) (invStd (var h)) gamma beta

/-- The whole computation for a given variance formula. -/
def outWith {R D C E : Nat} (var : (Fin R → Fin C → EReal) → Fin C → EReal)
    (A₁ : Arr2 R C → Arr2 R C) (A₂ : Arr2 R E → Arr2 R E)
    (x : Arr2 R D) (W₁ : Arr2 D C) (b₁ gamma beta : Fin C → EReal) (W₂ : Arr2 C E) (b₂ : Fin E → EReal) : Arr2 R E :=
  l2rows (addBias (A₂ (mm (toArr (hiddenWith var (addBias (A₁ (mm x W₁)) b₁) gamma beta)) W₂)) b₂)

end Cert.Spec

end
-- ==== Proof.KernelHost.lean ====
import proofs.«181567_j39247411151462_1_alg».proof.Proof.Gen.KernelIdeal.Frame
import proofs.«181567_j39247411151462_1_alg».proof.Proof.Spec
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

/-! ## The edge list's two rows, and the neighbour aggregation as one function -/

/-- The edges' source nodes: row 0 of the edge list. -/
def srcRow (e : S2x800000.Idx → BitVec 32) : S800000.Idx → BitVec 32 :=
  shapeCast S800000 (extractStridedSlice S1x800000 ![0, 0] e slices_S2x800000_S1x800000_0_0) shapeCasts_S1x800000_S800000

/-- The edges' target nodes: row 1 of the edge list. -/
def dstRow (e : S2x800000.Idx → BitVec 32) : S800000.Idx → BitVec 32 :=
  shapeCast S800000 (extractStridedSlice S1x800000 ![1, 0] e slices_S2x800000_S1x800000_1_0) shapeCasts_S1x800000_S800000

/-- The source nodes with a negative index wrapped by the node count, as a column of start indices. -/
def srcCol (e : S2x800000.Idx → BitVec 32) : S800000x1.Idx → BitVec 32 :=
  broadcastInDim S800000x1 ![0] bcast_S800000_S800000x1_0
    (select (cmpi CmpIPredicate.slt (srcRow e) (broadcastInDim S800000 ![] bcast_S_S800000 (constantI S_ 32 0#32)))
      (addi (srcRow e) (broadcastInDim S800000 ![] bcast_S_S800000 (constantI S_ 32 50000#32))) (srcRow e))

/-- The target nodes as a column of scatter indices. -/
def dstCol (e : S2x800000.Idx → BitVec 32) : S800000x1.Idx → BitVec 32 :=
  broadcastInDim S800000x1 ![0] bcast_S800000_S800000x1_0 (dstRow e)

/-- The first layer's neighbour aggregation: the rows of `h` the edges' sources name, added into the zero array at
    the rows the edges' targets name. -/
def agg1 (e : S2x800000.Idx → BitVec 32) (h : S50000x256.Idx → EReal) : S50000x256.Idx → EReal :=
  Host.scatterAdd (F := Ideal) (φ := .f32) scatter_S50000x256_S800000x1_S800000x256_1_0_0_1
    (broadcastInDim S50000x256 ![] bcast_S_S50000x256 (constant S_ .f32 0x00000000#32)) (dstCol e)
    (Host.gather gather_S50000x256_S800000x1_S800000x256_1_0_n_n_0_1_1256 h (srcCol e))

/-- The second layer's neighbour aggregation: the same over 128 columns. -/
def agg2 (e : S2x800000.Idx → BitVec 32) (h : S50000x128.Idx → EReal) : S50000x128.Idx → EReal :=
  Host.scatterAdd (F := Ideal) (φ := .f32) scatter_S50000x128_S800000x1_S800000x128_1_0_0_1
    (broadcastInDim S50000x128 ![] bcast_S_S50000x128 (constant S_ .f32 0x00000000#32)) (dstCol e)
    (Host.gather gather_S50000x128_S800000x1_S800000x128_1_0_n_n_0_1_1128 h (srcCol e))

variable (m : (ℓ : Loc nD τ sig) → Buf (Elt Ideal) ℓ) (ρ : Dev nD → PrngReg)

/-- A buffer no operation of a host stretch writes holds after the stretch what it held before it. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Before the first product -/

theorem V1_arg0 (c : Dev nD) : V1 m ρ c main_arg0 = m ((c : Thread nD τ).loc main_arg0) := by
  show W1 m ρ c (Proc.devRef .tc main_arg0) = W0 m ρ c (Proc.devRef .tc main_arg0)
  host_keep hostOps0

theorem V1_arg2 (c : Dev nD) : V1 m ρ c main_arg2 = m ((c : Thread nD τ).loc main_arg2) := by
  show W1 m ρ c (Proc.devRef .tc main_arg2) = W0 m ρ c (Proc.devRef .tc main_arg2)
  host_keep hostOps0

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

theorem W1_arg (c : Dev nD) (b : Ref sig .tc) (hb : b = main_arg3 ∨ b = main_arg4 ∨ b = main_arg5 ∨ b = main_arg6 ∨ b = main_arg7) :
    W1 m ρ c (Proc.devRef .tc b) = m ((c : Thread nD τ).loc b) := by
  show W1 m ρ c (Proc.devRef .tc b) = W0 m ρ c (Proc.devRef .tc b)
  rcases hb with rfl | rfl | rfl | rfl | rfl <;> host_keep hostOps0

/-! ## Buffers that nothing writes between the first product and the second: the edge rows and the later arguments -/

/-- The buffers carried unchanged from before the first product up to the second. -/
def Kept (b : Ref sig .tc) : Prop :=
  b = main_v1 ∨ b = main_v3 ∨ b = main_arg3 ∨ b = main_arg4 ∨ b = main_arg5 ∨ b = main_arg6 ∨ b = main_arg7

theorem W2_kept (c : Dev nD) (b : Ref sig .tc) (hb : Kept b) : W2 m ρ c (Proc.devRef .tc b) = W1 m ρ c (Proc.devRef .tc b) := by
  rcases hb with rfl | rfl | rfl | rfl | rfl | rfl | rfl <;> exact W2_of_ne m ρ c _ (by decide)

theorem W3_kept (c : Dev nD) (b : Ref sig .tc) (hb : Kept b) : W3 m ρ c (Proc.devRef .tc b) = W1 m ρ c (Proc.devRef .tc b) := by
  refine Eq.trans ?_ (W2_kept m ρ c b hb)
  show W3 m ρ c (Proc.devRef .tc b) = W2 m ρ c (Proc.devRef .tc b)
  rcases hb with rfl | rfl | rfl | rfl | rfl | rfl | rfl <;> host_keep hostOps1

theorem W4_kept (c : Dev nD) (b : Ref sig .tc) (hb : Kept b) : W4 m ρ c (Proc.devRef .tc b) = W1 m ρ c (Proc.devRef .tc b) := by
  refine Eq.trans ?_ (W3_kept m ρ c b hb)
  rcases hb with rfl | rfl | rfl | rfl | rfl | rfl | rfl <;> exact W4_of_ne m ρ c _ (by decide)

theorem W5_kept (c : Dev nD) (b : Ref sig .tc) (hb : Kept b) : W5 m ρ c (Proc.devRef .tc b) = W1 m ρ c (Proc.devRef .tc b) := by
  refine Eq.trans ?_ (W4_kept m ρ c b hb)
  show W5 m ρ c (Proc.devRef .tc b) = W4 m ρ c (Proc.devRef .tc b)
  rcases hb with rfl | rfl | rfl | rfl | rfl | rfl | rfl <;> host_keep hostOps2

theorem W6_kept (c : Dev nD) (b : Ref sig .tc) (hb : Kept b) : W6 m ρ c (Proc.devRef .tc b) = W1 m ρ c (Proc.devRef .tc b) := by
  refine Eq.trans ?_ (W5_kept m ρ c b hb)
  rcases hb with rfl | rfl | rfl | rfl | rfl | rfl | rfl <;> exact W6_of_ne m ρ c _ (by decide)

/-- After the second product: the edge rows and the last bias (the second weight matrix is one of that product's own arrays). -/
theorem W7_kept (c : Dev nD) (b : Ref sig .tc) (hb : b = main_v1 ∨ b = main_v3 ∨ b = main_arg7) :
    W7 m ρ c (Proc.devRef .tc b) = W1 m ρ c (Proc.devRef .tc b) := by
  rcases hb with rfl | rfl | rfl
  · exact (W7_of_ne m ρ c _ (by decide)).trans (W6_kept m ρ c _ (Or.inl rfl))
  · exact (W7_of_ne m ρ c _ (by decide)).trans (W6_kept m ρ c _ (Or.inr (Or.inl rfl)))
  · exact (W7_of_ne m ρ c _ (by decide)).trans (W6_kept m ρ c _ (Or.inr (Or.inr (Or.inr (Or.inr (Or.inr (Or.inr rfl)))))))

/-! ## Between the first product and the statistics: the first aggregation and the bias row -/

theorem V3_v14 (c : Dev nD) :
    V3 m ρ c main_v14 = agg1 (m ((c : Thread nD τ).loc main_arg1)) (W2 m ρ c (Proc.devRef .tc main_v4)) := by
  have h1 := W2_kept m ρ c main_v1 (Or.inl rfl)
  have h3 := W2_kept m ρ c main_v3 (Or.inr (Or.inl rfl))
  rw [W1_v1] at h1; rw [W1_v3] at h3
  show StableHlo.after hostOps1 (W2 m ρ c) (Proc.devRef .tc main_v14) = _
  after_results
  rw [h1, h3]
  rfl

theorem V3_v15 (c : Dev nD) :
    V3 m ρ c main_v15 = shapeCast S1x256 (m ((c : Thread nD τ).loc main_arg3) : S256.Idx → EReal) shapeCasts_S256_S1x256 := by
  have h : V3 m ρ c main_v15 = shapeCast S1x256 (W2 m ρ c (Proc.devRef .tc main_arg3) : S256.Idx → EReal) shapeCasts_S256_S1x256 := by
    show StableHlo.after hostOps1 (W2 m ρ c) (Proc.devRef .tc main_v15) = _
    after_results
    rfl
  rw [h, W2_kept m ρ c main_arg3 (Or.inr (Or.inr (Or.inl rfl))), W1_arg m ρ c main_arg3 (Or.inl rfl)]

/-! ## After the statistics: its input arrays are as entered; then the mean, the reciprocal deviation, scale and shift rows -/

theorem W4_v14 (c : Dev nD) : W4 m ρ c (Proc.devRef .tc main_v14) = V3 m ρ c main_v14 :=
  (W4_arr m ρ c 0).trans (((dat1 (V3 m ρ) c).arrAt_in 0 rfl _).trans (A_eq1 (V3 m ρ) c 0))

theorem W4_v15 (c : Dev nD) : W4 m ρ c (Proc.devRef .tc main_v15) = V3 m ρ c main_v15 :=
  (W4_arr m ρ c 1).trans (((dat1 (V3 m ρ) c).arrAt_in 1 rfl _).trans (A_eq1 (V3 m ρ) c 1))

theorem V5_v14 (c : Dev nD) : V5 m ρ c main_v14 = V3 m ρ c main_v14 := by
  refine Eq.trans ?_ (W4_v14 m ρ c)
  show W5 m ρ c (Proc.devRef .tc main_v14) = W4 m ρ c (Proc.devRef .tc main_v14)
  host_keep hostOps2

theorem V5_v15 (c : Dev nD) : V5 m ρ c main_v15 = V3 m ρ c main_v15 := by
  refine Eq.trans ?_ (W4_v15 m ρ c)
  show W5 m ρ c (Proc.devRef .tc main_v15) = W4 m ρ c (Proc.devRef .tc main_v15)
  host_keep hostOps2

/-- A scalar word spread over a [1, 256] row. -/
abbrev row256 (b : BitVec 32) : FVec Ideal S1x256 .f32 := broadcastInDim S1x256 ![] bcast_S_S1x256 (constant (F := Ideal) S_ .f32 b)

/-- The sums row as the statistics leave it. -/
abbrev sumsRow (c : Dev nD) : FVec Ideal S1x256 .f32 := W4 m ρ c (Proc.devRef .tc main_v16_0)
/-- The sums-of-squares row as the statistics leave it. -/
abbrev sqsRow (c : Dev nD) : FVec Ideal S1x256 .f32 := W4 m ρ c (Proc.devRef .tc main_v16_1)

/-- The mean row: the sums row over the row count. -/
theorem V5_v18 (c : Dev nD) :
    V5 m ρ c main_v18 = (Host.divf (sumsRow m ρ c) (row256 0x47435000#32) : FVec Ideal S1x256 .f32) := by
  show StableHlo.after hostOps2 (W4 m ρ c) (Proc.devRef .tc main_v18) = _
  after_results

/-- The reciprocal deviation row: rsqrt of (mean of squares − squared mean + ε). -/
theorem V5_v25 (c : Dev nD) :
    V5 m ρ c main_v25 = (Host.rsqrt (addf (subf
        (Host.divf (sqsRow m ρ c) (row256 0x47435000#32) : FVec Ideal S1x256 .f32)
        (mulf (Host.divf (sumsRow m ρ c) (row256 0x47435000#32) : FVec Ideal S1x256 .f32)
          (Host.divf (sumsRow m ρ c) (row256 0x47435000#32) : FVec Ideal S1x256 .f32)))
        (row256 0x3727C5AC#32)) : FVec Ideal S1x256 .f32) := by
  show StableHlo.after hostOps2 (W4 m ρ c) (Proc.devRef .tc main_v25) = _
  after_results

theorem V5_v26 (c : Dev nD) :
    V5 m ρ c main_v26 = shapeCast S1x256 (m ((c : Thread nD τ).loc main_arg4) : S256.Idx → EReal) shapeCasts_S256_S1x256 := by
  have h : V5 m ρ c main_v26 = shapeCast S1x256 (W4 m ρ c (Proc.devRef .tc main_arg4) : S256.Idx → EReal) shapeCasts_S256_S1x256 := by
    show StableHlo.after hostOps2 (W4 m ρ c) (Proc.devRef .tc main_v26) = _
    after_results
    rfl
  rw [h, W4_kept m ρ c main_arg4 (Or.inr (Or.inr (Or.inr (Or.inl rfl)))), W1_arg m ρ c main_arg4 (Or.inr (Or.inl rfl))]

theorem V5_v27 (c : Dev nD) :
    V5 m ρ c main_v27 = shapeCast S1x256 (m ((c : Thread nD τ).loc main_arg5) : S256.Idx → EReal) shapeCasts_S256_S1x256 := by
  have h : V5 m ρ c main_v27 = shapeCast S1x256 (W4 m ρ c (Proc.devRef .tc main_arg5) : S256.Idx → EReal) shapeCasts_S256_S1x256 := by
    show StableHlo.after hostOps2 (W4 m ρ c) (Proc.devRef .tc main_v27) = _
    after_results
    rfl
  rw [h, W4_kept m ρ c main_arg5 (Or.inr (Or.inr (Or.inr (Or.inr (Or.inl rfl))))), W1_arg m ρ c main_arg5 (Or.inr (Or.inr (Or.inl rfl)))]

/-! ## The second product's weights, and after it the second aggregation and the last bias row -/

theorem V6_arg6 (c : Dev nD) : V6 m ρ c main_arg6 = m ((c : Thread nD τ).loc main_arg6) :=
  (W6_kept m ρ c main_arg6 (Or.inr (Or.inr (Or.inr (Or.inr (Or.inr (Or.inl rfl))))))).trans
    (W1_arg m ρ c main_arg6 (Or.inr (Or.inr (Or.inr (Or.inl rfl)))))

theorem V8_v39 (c : Dev nD) :
    V8 m ρ c main_v39 = agg2 (m ((c : Thread nD τ).loc main_arg1)) (W7 m ρ c (Proc.devRef .tc main_v29)) := by
  have h1 := W7_kept m ρ c main_v1 (Or.inl rfl)
  have h3 := W7_kept m ρ c main_v3 (Or.inr (Or.inl rfl))
  rw [W1_v1] at h1; rw [W1_v3] at h3
  show StableHlo.after hostOps4 (W7 m ρ c) (Proc.devRef .tc main_v39) = _
  after_results
  rw [h1, h3]
  rfl

theorem V8_v40 (c : Dev nD) :
    V8 m ρ c main_v40 = shapeCast S1x128 (m ((c : Thread nD τ).loc main_arg7) : S128.Idx → EReal) shapeCasts_S128_S1x128 := by
  have h : V8 m ρ c main_v40 = shapeCast S1x128 (W7 m ρ c (Proc.devRef .tc main_arg7) : S128.Idx → EReal) shapeCasts_S128_S1x128 := by
    show StableHlo.after hostOps4 (W7 m ρ c) (Proc.devRef .tc main_v40) = _
    after_results
    rfl
  rw [h, W7_kept m ρ c main_arg7 (Or.inr (Or.inr rfl)), W1_arg m ρ c main_arg7 (Or.inr (Or.inr (Or.inr (Or.inr rfl))))]

end Cert.KernelIdeal.Val

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
import proofs.«181567_j39247411151462_1_alg».proof.Proof.Gen.KernelIdeal.Frame
import proofs.«181567_j39247411151462_1_alg».proof.Proof.Spec
import proofs.«181567_j39247411151462_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The first product's rectangles all start at the origin, spelt as the constant zero function. -/
theorem product0_origin : (![0, 0] : Fin 2 → Nat) = fun _ => 0 := funext fun a => by fin_cases a <;> rfl

/-- The first product's body at entry (p, q) of its block: the row p of the left block against the column q of the
    right one, summed over the 512 contracted positions (the narrowing of both operands is the identity on the
    extended reals, and the accumulator starts at zero). -/
theorem product0_payload_apply (x : FVec Ideal S2000x512 .f32) (w : FVec Ideal S512x256 .f32) (p : Fin 2000) (q : Fin 256) :
    k0_pay1 (F := Ideal) x w (ix2 p q) = ∑ k : Fin 512, x (ix2 p k) * w (ix2 k q) := by
  unfold k0_pay1
  exact PlainDot.matmul_zero_apply 2000 512 256 (truncf .bf16 x bitsLt_bf16_f32) (truncf .bf16 w bitsLt_bf16_f32) p q

/-- If row p of the left block is row `row i` of the left array and column q of the right block is column `col i` of
    the right array, the body's entry (p, q) is entry i of the product of the two arrays. -/
theorem product0_block_entry (X : S50000x512.Idx → EReal) (W : S512x256.Idx → EReal)
    (x : FVec Ideal S2000x512 .f32) (w : FVec Ideal S512x256 .f32) (p : Fin 2000) (q : Fin 256) (i : S50000x256.Idx)
    (hx : ∀ k : Fin 512, x (ix2 p k) = X (ix2 (Cert.Spec.row i) k))
    (hw : ∀ k : Fin 512, w (ix2 k q) = W (ix2 k (Cert.Spec.col i))) :
    k0_pay1 (F := Ideal) x w (ix2 p q) = Cert.Spec.mm X W i := by
  rw [product0_payload_apply]
  show _ = ∑ k : Fin 512, X (ix2 (Cert.Spec.row i) k) * W (ix2 k (Cert.Spec.col i))
  exact Finset.sum_congr rfl fun k _ => by rw [hx k, hw k]

/-- The block indices of the three windows, decided once over the 25 points: the left operand's block row is the
    output's, which is the point itself; every block column is 0; the right operand's block is always (0, 0). -/
theorem product0_index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays: entry (p, q) of the block sits at row
    2000 t + p of the array, the left block's row p is that same row of the left array, and the right block is the
    whole right array. -/
theorem product0_written (c : Dev nD) (t : Fin cfg0.N) :
    (dat0 (F := Ideal) V c).flushed 2 t = ((cfg0.win 2).blk t).view.read (Elt Ideal)
      (Cert.Spec.mm (V c main_arg0 : S50000x512.Idx → EReal) (V c main_arg2 : S512x256.Idx → EReal)) := by
  show (cfg0.win 2).cut (grid0.coords t) ((dat0 (F := Ideal) V c).after 2 t) = _
  rw [after0_2]
  unfold out0_2
  rw [View.canon_unit_zero product0_origin]
  simp only [View.ld_unit_zero (S := S2000x512) product0_origin, View.ld_unit_zero (S := S512x256) product0_origin]
  funext j
  obtain ⟨e00, e01, e10, e11, e20, e21⟩ := product0_index_facts t
  show k0_pay1 (F := Ideal) (iblk0 V c 0 t) (iblk0 V c 1 t) j
    = Cert.Spec.mm (V c main_arg0 : S50000x512.Idx → EReal) (V c main_arg2 : S512x256.Idx → EReal) (((cfg0.win 2).blk t).view.emb j)
  refine (congrArg (k0_pay1 (F := Ideal) (iblk0 V c 0 t) (iblk0 V c 1 t)) (eq_ix2 (n0 := 2000) (n1 := 256) j)).trans ?_
  refine product0_block_entry (V c main_arg0) (V c main_arg2) (iblk0 V c 0 t) (iblk0 V c 1 t) (j 0) (j 1)
    (((cfg0.win 2).blk t).view.emb j) (fun k => ?_) (fun k => ?_)
  · show (V c main_arg0 : S50000x512.Idx → EReal) (((cfg0.win 0).blk t).view.emb (ix2 (j 0) k))
      = (V c main_arg0 : S50000x512.Idx → EReal) (ix2 (Cert.Spec.row (((cfg0.win 2).blk t).view.emb j)) k)
    refine congrArg (V c main_arg0 : S50000x512.Idx → EReal) (funext fun a => Fin.ext ?_)
    match a with
    | ⟨0, _⟩ =>
      show win0_0.index t (0 : Fin 2) * 2000 + 1 * (j 0).val = win0_2.index t (0 : Fin 2) * 2000 + 1 * (j 0).val
      rw [e00]
    | ⟨1, _⟩ =>
      show win0_0.index t (1 : Fin 2) * 512 + 1 * k.val = k.val
      rw [e01]; omega
  · show (V c main_arg2 : S512x256.Idx → EReal) (((cfg0.win 1).blk t).view.emb (ix2 k (j 1)))
      = (V c main_arg2 : S512x256.Idx → EReal) (ix2 k (Cert.Spec.col (((cfg0.win 2).blk t).view.emb j)))
    refine congrArg (V c main_arg2 : S512x256.Idx → EReal) (funext fun a => Fin.ext ?_)
    match a with
    | ⟨0, _⟩ =>
      show win0_1.index t (0 : Fin 2) * 512 + 1 * k.val = k.val
      rw [e10]; omega
    | ⟨1, _⟩ =>
      show win0_1.index t (1 : Fin 2) * 256 + 1 * (j 1).val = win0_2.index t (1 : Fin 2) * 256 + 1 * (j 1).val
      rw [e11, e21]

/-- An index of the output array is in point t's block iff, on each axis, it lies in the block's range. -/
theorem product0_mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v4).slice (win0_2.rect t)).set ↔ _
  rw [View.set_slice_whole, Rect.mem_set_unit]
  exact Iff.rfl

/-- The 25 blocks of 2000 rows tile the 50000 rows: row r is in the block of point r / 2000, which is written back. -/
theorem product0_cover (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  have hN : grid0.N = 25 := N_0
  have hlt : (i 0).val / 2000 < cfg0.N := by show (i 0).val / 2000 < grid0.N; omega
  obtain ⟨-, -, -, -, e20, e21⟩ := product0_index_facts ⟨(i 0).val / 2000, hlt⟩
  refine ⟨⟨(i 0).val / 2000, hlt⟩, flush0_2 _, ?_⟩
  rw [product0_mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    rw [e21]; omega

/-- The array the first product's output window ends holding: the product of the two arrays its input windows read. -/
theorem region0_arr (c : Dev nD) :
    ((dat0 (F := Ideal) V c).arrAt 2 cfg0.N : S50000x256.Idx → EReal)
      = Cert.Spec.mm (V c main_arg0 : S50000x512.Idx → EReal) (V c main_arg2 : S512x256.Idx → EReal) := by
  show (dat0 (F := Ideal) V c).arrAt 2 cfg0.N = _
  exact (dat0 (F := Ideal) V c).arrAt_eq_of_cover 2
    (Cert.Spec.mm (V c main_arg0 : S50000x512.Idx → EReal) (V c main_arg2 : S512x256.Idx → EReal))
    (fun t _ => product0_written V c t) product0_cover

end Cert.KernelIdeal.Val

end
-- ==== Proof.Region1.lean ====
import proofs.«181567_j39247411151462_1_alg».proof.Proof.Gen.KernelIdeal.Frame
import proofs.«181567_j39247411151462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- A [1, n] array read as a function of its column. -/
abbrev rowVec {n : Nat} (a : (⟨2, ![1, n]⟩ : Shape).Idx → EReal) : Fin n → EReal := fun q => a (ix2 (0 : Fin 1) q)

/-- The statistics region's features: the aggregated array plus the bias row, as the region finds them. -/
abbrev feat1 (c : Dev nD) : Fin 50000 → Fin 256 → EReal :=
  Cert.Spec.addBias (V c main_v14 : S50000x256.Idx → EReal) (rowVec (V c main_v15 : S1x256.Idx → EReal))

/-! ## The pieces each control case leaves in the two accumulators -/

/-- The offsets of a whole-buffer rectangle are all zero. -/
theorem zeroOff1 : (![0, 0] : Fin 2 → Nat) = fun _ => 0 := funext fun a => by fin_cases a <;> rfl

section Pieces

variable {F : FTy → Type} [FloatOps F]

/-- The first point, first accumulator: the zero row is stored, read back, and the block's column sums are added to it. -/
theorem accA1_sum (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec F S2000x256 .f32) (x1 : Vec F S1x256 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x256) zeroOff1, View.readCov_unit_zero (S := S1x256) _ zeroOff1]
  simp only [View.readAt_eq_ld, h1.read_unread, h2.read_unread, View.ld_unit_zero (S := S2000x256) zeroOff1,
    View.ld_unit_zero (S := S1x256) zeroOff1]

/-- The first point, second accumulator: the zero row is stored, read back, and the block's column sums of squares are added to it. -/
theorem accA1_sq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec F S2000x256 .f32) (x1 : Vec F S1x256 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x256) zeroOff1, View.readCov_unit_zero (S := S1x256) _ zeroOff1]
  simp only [View.readAt_eq_ld, h1.read_unread, h2.read_unread, View.ld_unit_zero (S := S2000x256) zeroOff1,
    View.ld_unit_zero (S := S1x256) zeroOff1]

/-- Every later point, first accumulator: the block's column sums are added to what the point before left. -/
theorem accB1_sum (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec F S2000x256 .f32) (x1 : Vec F S1x256 .f32) (xo2 xo3 : Vec F S1x256 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero zeroOff1]
  simp only [View.readAt_eq_ld, h1.read_unread, h2.read_unread, h3.read_unread, h4.read_unread,
    View.ld_unit_zero (S := S2000x256) zeroOff1, View.ld_unit_zero (S := S1x256) zeroOff1]

/-- Every later point, second accumulator: the block's column sums of squares are added to what the point before left. -/
theorem accB1_sq (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec F S2000x256 .f32) (x1 : Vec F S1x256 .f32) (xo2 xo3 : Vec F S1x256 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero zeroOff1]
  simp only [View.readAt_eq_ld, h1.read_unread, h2.read_unread, h3.read_unread, h4.read_unread,
    View.ld_unit_zero (S := S2000x256) zeroOff1, View.ld_unit_zero (S := S1x256) zeroOff1]

end Pieces

/-! ## The body's arithmetic, entry by entry, over the extended reals -/

section Payloads

/-- The stored zero row of the first accumulator reads zero in every column. -/
theorem zeroSum1_apply (q : Fin 256) : (k1_pay1 (F := Ideal)) (ix2 (0 : Fin 1) q) = (0 : EReal) :=
  Ideal.ofBits_zero_f32

/-- The stored zero row of the second accumulator reads zero in every column. -/
theorem zeroSq1_apply (q : Fin 256) : (k1_pay2 (F := Ideal)) (ix2 (0 : Fin 1) q) = (0 : EReal) :=
  Ideal.ofBits_zero_f32

/-- A block's entry plus the bias of its column. -/
theorem biased1_apply (x0 : S2000x256.Idx → EReal) (x1 : S1x256.Idx → EReal) (r : Fin 2000) (q : Fin 256) :
    k1_pay3 (F := Ideal) x0 x1 (ix2 r q) = x0 (ix2 r q) + x1 (ix2 (0 : Fin 1) q) := by
  unfold k1_pay3
  show shapeCast S2000x256 x0 shapeCasts_S2000x256_S2000x256 (ix2 r q)
      + broadcastTo S2000x256 (shapeCast S1x256 x1 shapeCasts_S1x256_S1x256) broadcasts_S1x256_S2000x256 (ix2 r q) = _
  refine congrArg₂ (· + ·) (congrFun (shapeCast_self x0 _) _) ?_
  refine (broadcastTo_1b_ab_apply _ broadcasts_S1x256_S2000x256 r q).trans ?_
  exact congrFun (shapeCast_self x1 _) _

/-- A sum along the 2000 rows of a block, read at a column. -/
theorem laneSum1_apply (src : S2000x256.Idx → EReal) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ r : Fin 2000, src (ix2 r q) := by
  refine (Ideal.multiReduction_add_single (φ := .f32) src 0x00000000#32 reduces_S2000x256_S256 hφ hacc (ix1 q)).trans ?_
  refine Finset.sum_congr rfl fun r _ => congrArg src ?_
  funext a
  match a with
  | ⟨0, _⟩ => rfl
  | ⟨1, _⟩ => rfl

/-- The first accumulator's update at a column: what it held plus the sum of the block's features there. -/
theorem addSum1_apply (x0 : S2000x256.Idx → EReal) (x1 : S1x256.Idx → EReal) (acc : S1x256.Idx → EReal) (q : Fin 256) :
    k1_pay4 (F := Ideal) x0 x1 acc (ix2 (0 : Fin 1) q)
      = acc (ix2 (0 : Fin 1) q) + ∑ r : Fin 2000, (x0 (ix2 r q) + x1 (ix2 (0 : Fin 1) q)) := by
  unfold k1_pay4
  show shapeCast S1x256 acc shapeCasts_S1x256_S1x256 (ix2 (0 : Fin 1) q)
      + shapeCast S1x256 (multiReduction (F := Ideal) .add [0] S256 (k1_pay3 (F := Ideal) x0 x1) 0x00000000#32
          reduces_S2000x256_S256 (.inl rfl) rfl) shapeCasts_S256_S1x256 (ix2 (0 : Fin 1) q) = _
  refine congrArg₂ (· + ·) (congrFun (shapeCast_self acc _) _) ?_
  refine (shapeCast_a_1a_apply _ shapeCasts_S256_S1x256 (0 : Fin 1) q).trans ?_
  refine (laneSum1_apply _ _ _ q).trans ?_
  exact Finset.sum_congr rfl fun r _ => biased1_apply x0 x1 r q

/-- The second accumulator's update at a column: what it held plus the sum of the block's squared features there. -/
theorem addSq1_apply (x0 : S2000x256.Idx → EReal) (x1 : S1x256.Idx → EReal) (acc : S1x256.Idx → EReal) (q : Fin 256) :
    k1_pay5 (F := Ideal) x0 x1 acc (ix2 (0 : Fin 1) q)
      = acc (ix2 (0 : Fin 1) q)
        + ∑ r : Fin 2000, (x0 (ix2 r q) + x1 (ix2 (0 : Fin 1) q)) * (x0 (ix2 r q) + x1 (ix2 (0 : Fin 1) q)) := by
  unfold k1_pay5
  show shapeCast S1x256 acc shapeCasts_S1x256_S1x256 (ix2 (0 : Fin 1) q)
      + shapeCast S1x256 (multiReduction (F := Ideal) .add [0] S256
          (mulf (k1_pay3 (F := Ideal) x0 x1) (k1_pay3 (F := Ideal) x0 x1)) 0x00000000#32
          reduces_S2000x256_S256 (.inl rfl) rfl) shapeCasts_S256_S1x256 (ix2 (0 : Fin 1) q) = _
  refine congrArg₂ (· + ·) (congrFun (shapeCast_self acc _) _) ?_
  refine (shapeCast_a_1a_apply _ shapeCasts_S256_S1x256 (0 : Fin 1) q).trans ?_
  refine (laneSum1_apply _ _ _ q).trans ?_
  refine Finset.sum_congr rfl fun r _ => ?_
  show k1_pay3 (F := Ideal) x0 x1 (ix2 r q) * k1_pay3 (F := Ideal) x0 x1 (ix2 r q) = _
  rw [biased1_apply]

end Payloads

/-! ## The blocks the windows present, read in the arrays' own coordinates -/

section Blocks

/-- The aggregated array's block at point `t`: rows `2000 t … 2000 t + 1999`, every column. -/
abbrev xblk1 (c : Dev nD) (t : Fin cfg1.N) : S2000x256.Idx → EReal := iblk1 V c 0 t
/-- The bias row's block at point `t`: the whole row. -/
abbrev bblk1 (c : Dev nD) (t : Fin cfg1.N) : S1x256.Idx → EReal := iblk1 V c 1 t

/-- The index maps over the grid: the feature window's block row is the point, its block column zero; the bias
    window never moves. -/
theorem idxIn1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0)

/-- Entry `(r, q)` of the feature block at point `t` is entry `(2000 t + r, q)` of the aggregated array. -/
theorem xblk1_apply (c : Dev nD) (t : Fin cfg1.N) (r : Fin 2000) (q : Fin 256) (h : 2000 * t.val + r.val < 50000) :
    xblk1 V c t (ix2 r q) = (V c main_v14 : S50000x256.Idx → EReal) (ix2 (⟨2000 * t.val + r.val, h⟩ : Fin 50000) q) := by
  obtain ⟨e0, e1, -, -⟩ := idxIn1 t
  show iblk1 V c 0 t (ix2 r q) = _
  unfold iblk1
  rw [View.read_apply]
  show V c main_v14 _ = V c main_v14 _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 256 + 1 * q.val = q.val; rw [e1]; omega

/-- The bias block is the bias row. -/
theorem bblk1_apply (c : Dev nD) (t : Fin cfg1.N) (q : Fin 256) :
    bblk1 V c t (ix2 (0 : Fin 1) q) = (V c main_v15 : S1x256.Idx → EReal) (ix2 (0 : Fin 1) q) := by
  obtain ⟨-, -, e0, e1⟩ := idxIn1 t
  show iblk1 V c 1 t (ix2 (0 : Fin 1) q) = _
  unfold iblk1
  rw [View.read_apply]
  show V c main_v15 _ = V c main_v15 _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

end Blocks

/-! ## The running sums: after point `n` each accumulator holds its sum over the rows `0 … 2000 (n + 1) - 1` -/

section Sums

/-- The features by a natural row number (zero past the last row, which no point reads). -/
def featN1 (c : Dev nD) (n : ℕ) (q : Fin 256) : EReal := if h : n < 50000 then feat1 V c ⟨n, h⟩ q else 0

theorem featN1_of_lt (c : Dev nD) (n : ℕ) (h : n < 50000) (q : Fin 256) : featN1 V c n q = feat1 V c ⟨n, h⟩ q := dif_pos h

/-- A block's entry plus its column's bias is the feature at the block's row of the array. -/
theorem blk1_feat (c : Dev nD) (t : Fin cfg1.N) (r : Fin 2000) (q : Fin 256) :
    xblk1 V c t (ix2 r q) + bblk1 V c t (ix2 (0 : Fin 1) q) = featN1 V c (2000 * t.val + r.val) q := by
  have hN : t.val < 25 := lt_of_lt_of_eq t.isLt (show cfg1.N = 25 from N_1)
  have h : 2000 * t.val + r.val < 50000 := by have := r.isLt; omega
  rw [featN1_of_lt V c _ h, xblk1_apply V c t r q h, bblk1_apply V c t q]
  rfl

/-- The rows before block `n`, then block `n`'s 2000 rows, are the rows before block `n + 1`. -/
theorem sumPrefix1_succ (g : ℕ → EReal) (n : ℕ) :
    ∑ k ∈ Finset.range (2000 * n), g k + ∑ r : Fin 2000, g (2000 * n + r.val) = ∑ k ∈ Finset.range (2000 * (n + 1)), g k := by
  rw [Nat.mul_succ, Finset.sum_range_add, Fin.sum_univ_eq_sum_range (fun r => g (2000 * n + r)) 2000]

/-- The first point: each accumulator is reset, then takes the first block's sums. -/
theorem stepA1 (c : Dev nD) (t : Fin cfg1.N) (h0 : t.val % 25 = 0) (q : Fin 256) :
    ((outsAt1 V c t.val t.isLt).1 : S1x256.Idx → EReal) (ix2 (0 : Fin 1) q)
        = ∑ r : Fin 2000, featN1 V c (2000 * t.val + r.val) q
    ∧ ((outsAt1 V c t.val t.isLt).2 : S1x256.Idx → EReal) (ix2 (0 : Fin 1) q)
        = ∑ r : Fin 2000, featN1 V c (2000 * t.val + r.val) q * featN1 V c (2000 * t.val + r.val) q := by
  rw [outsAt1_A V c t h0]
  dsimp only
  constructor
  · refine (congrFun (accA1_sum (F := Ideal) c (grid1.coords t) (ms1_0 t) (hs1_0 t) (ms1_1 t) (hs1_1 t) (ms1_2 t) (hs1_2 t)
      (ms1_3 t) (hs1_3 t) ((hcond1_0 t).mpr h0) (iblk1 V c 0 t) (iblk1 V c 1 t)) (ix2 (0 : Fin 1) q)).trans ?_
    refine (addSum1_apply (xblk1 V c t) (bblk1 V c t) (k1_pay1 (F := Ideal)) q).trans ?_
    rw [zeroSum1_apply, zero_add]
    exact Finset.sum_congr rfl fun r _ => blk1_feat V c t r q
  · refine (congrFun (accA1_sq (F := Ideal) c (grid1.coords t) (ms1_0 t) (hs1_0 t) (ms1_1 t) (hs1_1 t) (ms1_2 t) (hs1_2 t)
      (ms1_3 t) (hs1_3 t) ((hcond1_0 t).mpr h0) (iblk1 V c 0 t) (iblk1 V c 1 t)) (ix2 (0 : Fin 1) q)).trans ?_
    refine (addSq1_apply (xblk1 V c t) (bblk1 V c t) (k1_pay2 (F := Ideal)) q).trans ?_
    rw [zeroSq1_apply, zero_add]
    exact Finset.sum_congr rfl fun r _ => by rw [blk1_feat V c t r q]

/-- Every later point: each accumulator keeps what the point before left and adds its block's sums. -/
theorem stepB1 (c : Dev nD) (t : Fin cfg1.N) (h0 : ¬t.val % 25 = 0) (q : Fin 256) :
    ((outsAt1 V c t.val t.isLt).1 : S1x256.Idx → EReal) (ix2 (0 : Fin 1) q)
        = ((outsAt1 V c (t.val - 1) (Nat.lt_of_le_of_lt (Nat.sub_le _ _) t.isLt)).1 : S1x256.Idx → EReal) (ix2 (0 : Fin 1) q)
          + ∑ r : Fin 2000, featN1 V c (2000 * t.val + r.val) q
    ∧ ((outsAt1 V c t.val t.isLt).2 : S1x256.Idx → EReal) (ix2 (0 : Fin 1) q)
        = ((outsAt1 V c (t.val - 1) (Nat.lt_of_le_of_lt (Nat.sub_le _ _) t.isLt)).2 : S1x256.Idx → EReal) (ix2 (0 : Fin 1) q)
          + ∑ r : Fin 2000, featN1 V c (2000 * t.val + r.val) q * featN1 V c (2000 * t.val + r.val) q := by
  rw [outsAt1_B V c t h0]
  dsimp only
  constructor
  · refine (congrFun (accB1_sum (F := Ideal) c (grid1.coords t) (ms1_0 t) (hs1_0 t) (ms1_1 t) (hs1_1 t) (ms1_2 t) (hs1_2 t)
      (ms1_3 t) (hs1_3 t) (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) q)).trans ?_
    refine (addSum1_apply (xblk1 V c t) (bblk1 V c t)
      (outsAt1 V c (t.val - 1) (Nat.lt_of_le_of_lt (Nat.sub_le _ _) t.isLt)).1 q).trans ?_
    exact congrArg₂ (· + ·) rfl (Finset.sum_congr rfl fun r _ => blk1_feat V c t r q)
  · refine (congrFun (accB1_sq (F := Ideal) c (grid1.coords t) (ms1_0 t) (hs1_0 t) (ms1_1 t) (hs1_1 t) (ms1_2 t) (hs1_2 t)
      (ms1_3 t) (hs1_3 t) (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) q)).trans ?_
    refine (addSq1_apply (xblk1 V c t) (bblk1 V c t)
      (outsAt1 V c (t.val - 1) (Nat.lt_of_le_of_lt (Nat.sub_le _ _) t.isLt)).2 q).trans ?_
    exact congrArg₂ (· + ·) rfl (Finset.sum_congr rfl fun r _ => by rw [blk1_feat V c t r q])

/-- After point `n` the first accumulator holds, column by column, the sum of the features over the rows below
    `2000 (n + 1)`, the second the sum of their squares: by induction on the point. -/
theorem outsAt1_eq (c : Dev nD) : ∀ (n : ℕ) (h : n < cfg1.N) (q : Fin 256),
    ((outsAt1 V c n h).1 : S1x256.Idx → EReal) (ix2 (0 : Fin 1) q)
        = ∑ k ∈ Finset.range (2000 * (n + 1)), featN1 V c k q
    ∧ ((outsAt1 V c n h).2 : S1x256.Idx → EReal) (ix2 (0 : Fin 1) q)
        = ∑ k ∈ Finset.range (2000 * (n + 1)), featN1 V c k q * featN1 V c k q
  | 0, h, q => by
    obtain ⟨s1, s2⟩ := stepA1 V c ⟨0, h⟩ rfl q
    refine ⟨s1.trans ?_, s2.trans ?_⟩
    · rw [← sumPrefix1_succ (fun k => featN1 V c k q) 0, Nat.mul_zero, Finset.sum_range_zero, zero_add]
    · rw [← sumPrefix1_succ (fun k => featN1 V c k q * featN1 V c k q) 0, Nat.mul_zero, Finset.sum_range_zero, zero_add]
  | n + 1, h, q => by
    have hN : cfg1.N = 25 := N_1
    have hB : ¬(⟨n + 1, h⟩ : Fin cfg1.N).val % 25 = 0 := by dsimp only; omega
    obtain ⟨s1, s2⟩ := stepB1 V c ⟨n + 1, h⟩ hB q
    obtain ⟨i1, i2⟩ := outsAt1_eq c n (Nat.lt_of_succ_lt h) q
    refine ⟨s1.trans ?_, s2.trans ?_⟩
    · rw [← sumPrefix1_succ (fun k => featN1 V c k q) (n + 1)]
      exact congrArg₂ (· + ·) i1 rfl
    · rw [← sumPrefix1_succ (fun k => featN1 V c k q * featN1 V c k q) (n + 1)]
      exact congrArg₂ (· + ·) i2 rfl

end Sums

/-! ## The write-back: only the last point flushes, and its block is the whole [1, 256] array -/

section Final

/-- The two accumulator windows never move: block index (0, 0) at every point. -/
theorem idxOut1 : ∀ t : Fin cfg1.N, win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, win1_2.index t (0 : Fin 2) = 0 ∧ win1_2.index t (1 : Fin 2) = 0
    ∧ win1_3.index t (0 : Fin 2) = 0 ∧ win1_3.index t (1 : Fin 2) = 0)

/-- Each column's sum of the features, as contents of a [1, 256] array. -/
abbrev sumArr1 (c : Dev nD) : S1x256.Idx → EReal := fun i => Cert.Spec.colSum (feat1 V c) (Cert.Spec.col i)
/-- Each column's sum of the squared features, as contents of a [1, 256] array. -/
abbrev sumsqArr1 (c : Dev nD) : S1x256.Idx → EReal :=
  fun i => Cert.Spec.colSum (fun r q => feat1 V c r q * feat1 V c r q) (Cert.Spec.col i)

/-- A sum over the natural row numbers below 50000 is the sum over the rows. -/
theorem sumRows1 (G : ℕ → EReal) (g : Fin 50000 → EReal) (hG : ∀ r : Fin 50000, G r.val = g r) :
    ∑ k ∈ Finset.range 50000, G k = ∑ r : Fin 50000, g r := by
  rw [← Fin.sum_univ_eq_sum_range G 50000]
  exact Finset.sum_congr rfl fun r _ => hG r

/-- After the last point the first accumulator holds each column's sum over all 50000 rows, the second each
    column's sum of squares: the running sums at point 24, whose prefix is every row. -/
theorem last1_eq (c : Dev nD) (t : Fin cfg1.N) (h24 : t.val = 24) :
    ((outsAt1 V c t.val t.isLt).1 : S1x256.Idx → EReal) = sumArr1 V c
    ∧ ((outsAt1 V c t.val t.isLt).2 : S1x256.Idx → EReal) = sumsqArr1 V c := by
  have e : 2000 * (t.val + 1) = 50000 := by omega
  constructor
  · funext j
    obtain ⟨u, q, rfl⟩ : ∃ (u : Fin 1) (q : Fin 256), j = ix2 u q := ⟨j 0, j 1, eq_ix2 j⟩
    obtain rfl : u = 0 := Subsingleton.elim _ _
    refine ((outsAt1_eq V c t.val t.isLt q).1).trans ?_
    rw [e]
    exact sumRows1 (fun k => featN1 V c k q) (fun r => feat1 V c r q) fun r => featN1_of_lt V c r.val r.isLt q
  · funext j
    obtain ⟨u, q, rfl⟩ : ∃ (u : Fin 1) (q : Fin 256), j = ix2 u q := ⟨j 0, j 1, eq_ix2 j⟩
    obtain rfl : u = 0 := Subsingleton.elim _ _
    refine ((outsAt1_eq V c t.val t.isLt q).2).trans ?_
    rw [e]
    exact sumRows1 (fun k => featN1 V c k q * featN1 V c k q) (fun r => feat1 V c r q * feat1 V c r q)
      fun r => by rw [featN1_of_lt V c r.val r.isLt q]

/-- The one write-back of the first accumulator, at the last point, writes the column sums: block (0, 0) of the
    [1, 256] array read through zero offsets is the array. -/
theorem flushedSum1_eq (c : Dev nD) (t : Fin cfg1.N) (hf : (cfg1.win 2).flush t = true) :
    (dat1 V c).flushed 2 t = ((cfg1.win 2).blk t).view.read (Elt Ideal) (sumArr1 V c) := by
  have hN : cfg1.N = 25 := N_1
  have h24 : t.val = 24 := by have := (flush1_2 t).mp hf; have := t.isLt; omega
  obtain ⟨e0, e1, -, -⟩ := idxOut1 t
  show (cfg1.win 2).cut (grid1.coords t) ((dat1 V c).after 2 t) = _
  rw [after1_2]
  have hz' : (fun a => win1_2.index t a * main_v16_0.ty.shape.size a) = fun _ => 0 := funext fun a => by
    match a with
    | ⟨0, _⟩ => show win1_2.index t (0 : Fin 2) * 1 = 0; rw [e0]
    | ⟨1, _⟩ => show win1_2.index t (1 : Fin 2) * 256 = 0; rw [e1]
  refine Eq.trans ?_ (Memref.read_access_unit_zero (Elt Ideal) main_v16_0 hz' (fun a => by rw [congrFun hz' a]; simp) (sumArr1 V c)).symm
  exact (last1_eq V c t h24).1

/-- The one write-back of the second accumulator, at the last point, writes the column sums of squares. -/
theorem flushedSq1_eq (c : Dev nD) (t : Fin cfg1.N) (hf : (cfg1.win 3).flush t = true) :
    (dat1 V c).flushed 3 t = ((cfg1.win 3).blk t).view.read (Elt Ideal) (sumsqArr1 V c) := by
  have hN : cfg1.N = 25 := N_1
  have h24 : t.val = 24 := by have := (flush1_3 t).mp hf; have := t.isLt; omega
  obtain ⟨-, -, e0, e1⟩ := idxOut1 t
  show (cfg1.win 3).cut (grid1.coords t) ((dat1 V c).after 3 t) = _
  rw [after1_3]
  have hz' : (fun a => win1_3.index t a * main_v16_1.ty.shape.size a) = fun _ => 0 := funext fun a => by
    match a with
    | ⟨0, _⟩ => show win1_3.index t (0 : Fin 2) * 1 = 0; rw [e0]
    | ⟨1, _⟩ => show win1_3.index t (1 : Fin 2) * 256 = 0; rw [e1]
  refine Eq.trans ?_ (Memref.read_access_unit_zero (Elt Ideal) main_v16_1 hz' (fun a => by rw [congrFun hz' a]; simp) (sumsqArr1 V c)).symm
  exact (last1_eq V c t h24).2

/-- The last point of the grid. -/
abbrev tLast1 : Fin cfg1.N := ⟨24, by rw [show cfg1.N = 25 from N_1]; decide⟩

/-- The last point's block of the first accumulator's array covers every index of it. -/
theorem coverSum1 (c : Dev nD) (i : ((cfg1.win 2).arr.view.loc (c.tc : Thread nD τ)).2.ty.Idx) :
    ∃ t : Fin cfg1.N, (cfg1.win 2).flush t = true ∧ i ∈ ((cfg1.win 2).blk t).view.set := by
  obtain ⟨e0, e1, -, -⟩ := idxOut1 tLast1
  refine ⟨tLast1, (flush1_2 tLast1).mpr rfl, ?_⟩
  show i ∈ ((View.whole main_v16_0).slice (win1_2.rect tLast1)).set
  rw [View.set_slice_whole, Rect.mem_set_unit]
  intro a
  have h0 : (i 0 : Nat) < 1 := (i 0).isLt
  have h1 : (i 1 : Nat) < 256 := (i 1).isLt
  match a with
  | ⟨0, _⟩ =>
    show win1_2.index tLast1 (0 : Fin 2) * 1 ≤ (i 0 : Nat) ∧ (i 0 : Nat) < win1_2.index tLast1 (0 : Fin 2) * 1 + 1
    rw [e0]; omega
  | ⟨1, _⟩ =>
    show win1_2.index tLast1 (1 : Fin 2) * 256 ≤ (i 1 : Nat) ∧ (i 1 : Nat) < win1_2.index tLast1 (1 : Fin 2) * 256 + 256
    rw [e1]; omega

/-- The last point's block of the second accumulator's array covers every index of it. -/
theorem coverSq1 (c : Dev nD) (i : ((cfg1.win 3).arr.view.loc (c.tc : Thread nD τ)).2.ty.Idx) :
    ∃ t : Fin cfg1.N, (cfg1.win 3).flush t = true ∧ i ∈ ((cfg1.win 3).blk t).view.set := by
  obtain ⟨-, -, e0, e1⟩ := idxOut1 tLast1
  refine ⟨tLast1, (flush1_3 tLast1).mpr rfl, ?_⟩
  show i ∈ ((View.whole main_v16_1).slice (win1_3.rect tLast1)).set
  rw [View.set_slice_whole, Rect.mem_set_unit]
  intro a
  have h0 : (i 0 : Nat) < 1 := (i 0).isLt
  have h1 : (i 1 : Nat) < 256 := (i 1).isLt
  match a with
  | ⟨0, _⟩ =>
    show win1_3.index tLast1 (0 : Fin 2) * 1 ≤ (i 0 : Nat) ∧ (i 0 : Nat) < win1_3.index tLast1 (0 : Fin 2) * 1 + 1
    rw [e0]; omega
  | ⟨1, _⟩ =>
    show win1_3.index tLast1 (1 : Fin 2) * 256 ≤ (i 1 : Nat) ∧ (i 1 : Nat) < win1_3.index tLast1 (1 : Fin 2) * 256 + 256
    rw [e1]; omega

end Final

/-- The first accumulator ends holding each column's sum of the features. -/
theorem region1_sum (c : Dev nD) :
    ((dat1 (F := Ideal) V c).arrAt 2 cfg1.N : S1x256.Idx → EReal)
      = fun i => Cert.Spec.colSum (feat1 V c) (Cert.Spec.col i) :=
  (dat1 V c).arrAt_eq_of_cover 2 (sumArr1 V c) (flushedSum1_eq V c) (coverSum1 c)

/-- The second accumulator ends holding each column's sum of the squared features. -/
theorem region1_sumsq (c : Dev nD) :
    ((dat1 (F := Ideal) V c).arrAt 3 cfg1.N : S1x256.Idx → EReal)
      = fun i => Cert.Spec.colSum (fun r q => feat1 V c r q * feat1 V c r q) (Cert.Spec.col i) :=
  (dat1 V c).arrAt_eq_of_cover 3 (sumsqArr1 V c) (flushedSq1_eq V c) (coverSq1 c)

end Cert.KernelIdeal.Val

end
-- ==== Proof.Region2.lean ====
import proofs.«181567_j39247411151462_1_alg».proof.Proof.Gen.KernelIdeal.Frame
import proofs.«181567_j39247411151462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- A [1, n] array read as a function of its column. -/
abbrev rowVec2 {n : Nat} (a : (⟨2, ![1, n]⟩ : Shape).Idx → EReal) : Fin n → EReal := fun q => a (ix2 (0 : Fin 1) q)

/-- The zero offsets of a whole-buffer access, as the constant function. -/
theorem offsets_zero2 : (![0, 0] : Fin 2 → Nat) = fun _ => 0 := funext fun a => by fin_cases a <;> rfl

/-- A [1, 256] row broadcast over 2000 rows reads, at (p, q), the row at (0, q). -/
theorem broadcastRow2_apply (x : Vec Ideal S1x256 .f32) (h : S1x256.Broadcasts S2000x256) (p : Fin 2000) (q : Fin 256) :
    broadcastTo S2000x256 x h (ix2 p q) = x (ix2 (0 : Fin 1) q) := by
  refine broadcastTo_apply x h (ix2 p q) (ix2 (0 : Fin 1) q) fun a => ?_
  match a with
  | ⟨0, _⟩ => rfl
  | ⟨1, _⟩ => rfl

/-- The body's arithmetic at an entry (p, q) of the block: the feature plus the bias, less the mean, times the
    reciprocal deviation, times the scale, plus the shift, clamped below at zero; every row entry is read at (0, q). -/
theorem payload2_apply (x0 : Vec Ideal S2000x256 .f32) (x1 x2 x3 x4 x5 : Vec Ideal S1x256 .f32) (p : Fin 2000) (q : Fin 256) :
    k2_pay1 x0 x1 x2 x3 x4 x5 (ix2 p q)
      = max (((((x0 (ix2 p q) : EReal) + x1 (ix2 (0 : Fin 1) q) - x2 (ix2 (0 : Fin 1) q)) * x3 (ix2 (0 : Fin 1) q)) * x4 (ix2 (0 : Fin 1) q))
          + x5 (ix2 (0 : Fin 1) q)) 0 := by
  unfold k2_pay1
  simp only [maximumf_apply, addf_apply, mulf_apply, subf_apply, broadcast_apply, shapeCast_self]
  rw [broadcastRow2_apply x1, broadcastRow2_apply x2, broadcastRow2_apply x3, broadcastRow2_apply x4, broadcastRow2_apply x5]
  exact congrArg _ Ideal.ofBits_zero_f32

/-- What the region's output array ends holding: the features (aggregated array plus bias row) normalised with the mean
    and reciprocal deviation rows, scaled, shifted and clamped. -/
abbrev normalised2 (c : Dev nD) : S50000x256.Idx → EReal :=
  Cert.Spec.toArr (Cert.Spec.bnRelu
    (Cert.Spec.addBias (V c main_v14 : S50000x256.Idx → EReal) (rowVec2 (V c main_v15 : S1x256.Idx → EReal)))
    (rowVec2 (V c main_v18 : S1x256.Idx → EReal)) (rowVec2 (V c main_v25 : S1x256.Idx → EReal))
    (rowVec2 (V c main_v26 : S1x256.Idx → EReal)) (rowVec2 (V c main_v27 : S1x256.Idx → EReal)))

/-- The windows' block indices over the 25 points: the feature window and the output window sit at block row t, column
    block 0; each of the five row windows sits at block (0, 0). -/
theorem index_facts2 : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The feature window's block at point t, entry (p, q), is the feature array's entry (2000 t + p, q). -/
theorem featureBlock2_apply (c : Dev nD) (t : Fin cfg2.N) (p : Fin 2000) (q : Fin 256) (r : Fin 50000)
    (hr : r.val = t.val * 2000 + p.val) :
    (iblk2 V c 0 t : Vec Ideal S2000x256 .f32) (ix2 p q) = (V c main_v14 : S50000x256.Idx → EReal) (ix2 r q) := by
  obtain ⟨-, -, e0, e1, -⟩ := index_facts2 t
  show (V c main_v14 : S50000x256.Idx → EReal) (((cfg2.win 0).blk t).view.emb (ix2 p q)) = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * q.val = q.val; omega

/-- The bias window's block at any point is the whole bias row. -/
theorem biasBlock2_apply (c : Dev nD) (t : Fin cfg2.N) (q : Fin 256) :
    (iblk2 V c 1 t : Vec Ideal S1x256 .f32) (ix2 (0 : Fin 1) q) = (V c main_v15 : S1x256.Idx → EReal) (ix2 (0 : Fin 1) q) := by
  obtain ⟨-, -, -, -, e0, e1, -⟩ := index_facts2 t
  show (V c main_v15 : S1x256.Idx → EReal) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 256 + 1 * q.val = q.val; omega

/-- The mean window's block at any point is the whole mean row. -/
theorem meanBlock2_apply (c : Dev nD) (t : Fin cfg2.N) (q : Fin 256) :
    (iblk2 V c 2 t : Vec Ideal S1x256 .f32) (ix2 (0 : Fin 1) q) = (V c main_v18 : S1x256.Idx → EReal) (ix2 (0 : Fin 1) q) := by
  obtain ⟨-, -, -, -, -, -, e0, e1, -⟩ := index_facts2 t
  show (V c main_v18 : S1x256.Idx → EReal) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega

/-- The reciprocal-deviation window's block at any point is the whole reciprocal-deviation row. -/
theorem istdBlock2_apply (c : Dev nD) (t : Fin cfg2.N) (q : Fin 256) :
    (iblk2 V c 3 t : Vec Ideal S1x256 .f32) (ix2 (0 : Fin 1) q) = (V c main_v25 : S1x256.Idx → EReal) (ix2 (0 : Fin 1) q) := by
  obtain ⟨-, -, -, -, -, -, -, -, e0, e1, -⟩ := index_facts2 t
  show (V c main_v25 : S1x256.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 256 + 1 * q.val = q.val; omega

/-- The scale window's block at any point is the whole scale row. -/
theorem scaleBlock2_apply (c : Dev nD) (t : Fin cfg2.N) (q : Fin 256) :
    (iblk2 V c 4 t : Vec Ideal S1x256 .f32) (ix2 (0 : Fin 1) q) = (V c main_v26 : S1x256.Idx → EReal) (ix2 (0 : Fin 1) q) := by
  obtain ⟨-, -, -, -, -, -, -, -, -, -, e0, e1, -⟩ := index_facts2 t
  show (V c main_v26 : S1x256.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

/-- The shift window's block at any point is the whole shift row. -/
theorem shiftBlock2_apply (c : Dev nD) (t : Fin cfg2.N) (q : Fin 256) :
    (iblk2 V c 5 t : Vec Ideal S1x256 .f32) (ix2 (0 : Fin 1) q) = (V c main_v27 : S1x256.Idx → EReal) (ix2 (0 : Fin 1) q) := by
  obtain ⟨-, -, -, -, -, -, -, -, -, -, -, -, e0, e1⟩ := index_facts2 t
  show (V c main_v27 : S1x256.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 256 + 1 * q.val = q.val; omega

/-- The output window's block at point t, entry (p, q), sits in the array at (2000 t + p, q). -/
theorem outputBlock2_emb (t : Fin cfg2.N) (p : Fin 2000) (q : Fin 256) (r : Fin 50000)
    (hr : r.val = t.val * 2000 + p.val) :
    ((cfg2.win 6).blk t).view.emb (ix2 p q) = (ix2 r q : S50000x256.Idx) := by
  obtain ⟨e0, e1, -⟩ := index_facts2 t
  refine funext fun a => Fin.ext ?_
  match a with
  | ⟨0, _⟩ => show win2_6.index t (0 : Fin 2) * 2000 + 1 * p.val = r.val; omega
  | ⟨1, _⟩ => show win2_6.index t (1 : Fin 2) * 256 + 1 * q.val = q.val; omega

/-- What point t writes back is block row t of the normalised array. -/
theorem flushed2_eq (c : Dev nD) (t : Fin cfg2.N) :
    (dat2 (F := Ideal) V c).flushed 6 t = ((cfg2.win 6).blk t).view.read (Elt Ideal) (normalised2 V c) := by
  show (cfg2.win 6).cut (grid2.coords t) ((dat2 V c).after 6 t) = _
  rw [after2_6]
  unfold out2_6
  rw [View.canon_unit_zero offsets_zero2]
  simp only [View.ld_unit_zero (S := S2000x256) offsets_zero2, View.ld_unit_zero (S := S1x256) offsets_zero2]
  funext j
  obtain ⟨p, q, rfl⟩ : ∃ (p : Fin 2000) (q : Fin 256), j = ix2 p q := ⟨j 0, j 1, eq_ix2 j⟩
  refine (payload2_apply _ _ _ _ _ _ p q).trans ?_
  have ht : t.val < 25 := t.isLt
  have hr : t.val * 2000 + p.val < 50000 := by omega
  rw [featureBlock2_apply V c t p q ⟨t.val * 2000 + p.val, hr⟩ rfl, biasBlock2_apply, meanBlock2_apply, istdBlock2_apply,
    scaleBlock2_apply, shiftBlock2_apply]
  show _ = normalised2 V c (((cfg2.win 6).blk t).view.emb (ix2 p q))
  rw [outputBlock2_emb t p q ⟨t.val * 2000 + p.val, hr⟩ rfl]
  rfl

/-- An index of the array is in point t's block iff each coordinate is in the block's range on its axis. -/
theorem mem_block2 (t : Fin cfg2.N) (i : S50000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v28).slice (win2_6.rect t)).set ↔ _
  rw [View.set_slice_whole, Rect.mem_set_unit]
  exact Iff.rfl

/-- Every index of the array is in the block of a point that writes back: row r is in block row r / 2000. -/
theorem covered2 (i : S50000x256.Idx) :
    ∃ t : Fin cfg2.N, (cfg2.win 6).flush t = true ∧ i ∈ ((cfg2.win 6).blk t).view.set := by
  have hi0 : (i 0).val < 50000 := idx2_lt0 i
  have hi1 : (i 1).val < 256 := idx2_lt1 i
  have ht : (i 0).val / 2000 < 25 := by omega
  obtain ⟨t, hv⟩ : ∃ t : Fin cfg2.N, t.val = (i 0).val / 2000 := ⟨⟨(i 0).val / 2000, ht⟩, rfl⟩
  refine ⟨t, flush2_6 t, ?_⟩
  rw [mem_block2]
  obtain ⟨e0, e1, -⟩ := index_facts2 t
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 256 ≤ (i 1).val ∧ (i 1).val < win2_6.index t (1 : Fin 2) * 256 + 256
    omega

/-- The normalisation region's output array: normalise, scale, shift and clamp the features (aggregated array plus bias
    row) with the mean, reciprocal deviation, scale and shift rows the region finds. -/
theorem region2_arr (c : Dev nD) :
    ((dat2 (F := Ideal) V c).arrAt 6 cfg2.N : S50000x256.Idx → EReal)
      = Cert.Spec.toArr (Cert.Spec.bnRelu
          (Cert.Spec.addBias (V c main_v14 : S50000x256.Idx → EReal) (rowVec2 (V c main_v15 : S1x256.Idx → EReal)))
          (rowVec2 (V c main_v18 : S1x256.Idx → EReal)) (rowVec2 (V c main_v25 : S1x256.Idx → EReal))
          (rowVec2 (V c main_v26 : S1x256.Idx → EReal)) (rowVec2 (V c main_v27 : S1x256.Idx → EReal))) :=
  (dat2 (F := Ideal) V c).arrAt_eq_of_cover 6 (normalised2 V c) (fun t _ => flushed2_eq V c t) covered2

end Cert.KernelIdeal.Val

end
-- ==== Proof.Region3.lean ====
import proofs.«181567_j39247411151462_1_alg».proof.Proof.Gen.KernelIdeal.Frame
import proofs.«181567_j39247411151462_1_alg».proof.Proof.Spec
import proofs.«181567_j39247411151462_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The second product's rectangles all start at the origin, spelt as the constant zero function. -/
theorem product3_origin : (![0, 0] : Fin 2 → Nat) = fun _ => 0 := funext fun a => by fin_cases a <;> rfl

/-- The second product's body at entry (p, q) of its block: the row p of the left block against the column q of the
    right one, summed over the 256 contracted positions (the reshaping of the left block to its own shape and the
    narrowing of both operands are the identity on the extended reals, and the accumulator starts at zero). -/
theorem product3_payload_apply (x : FVec Ideal S2000x256 .f32) (w : FVec Ideal S256x128 .f32) (p : Fin 2000) (q : Fin 128) :
    k3_pay1 (F := Ideal) x w (ix2 p q) = ∑ k : Fin 256, x (ix2 p k) * w (ix2 k q) := by
  unfold k3_pay1
  refine (PlainDot.matmul_zero_apply 2000 256 128
    (truncf .bf16 (shapeCast S2000x256 x shapeCasts_S2000x256_S2000x256) bitsLt_bf16_f32) (truncf .bf16 w bitsLt_bf16_f32) p q).trans ?_
  exact Finset.sum_congr rfl fun k _ =>
    congrArg (fun v : FVec Ideal S2000x256 .f32 => v (ix2 p k) * w (ix2 k q)) (shapeCast_self x shapeCasts_S2000x256_S2000x256)

/-- If row p of the left block is row `row i` of the left array and column q of the right block is column `col i` of
    the right array, the body's entry (p, q) is entry i of the product of the two arrays. -/
theorem product3_block_entry (X : S50000x256.Idx → EReal) (W : S256x128.Idx → EReal)
    (x : FVec Ideal S2000x256 .f32) (w : FVec Ideal S256x128 .f32) (p : Fin 2000) (q : Fin 128) (i : S50000x128.Idx)
    (hx : ∀ k : Fin 256, x (ix2 p k) = X (ix2 (Cert.Spec.row i) k))
    (hw : ∀ k : Fin 256, w (ix2 k q) = W (ix2 k (Cert.Spec.col i))) :
    k3_pay1 (F := Ideal) x w (ix2 p q) = Cert.Spec.mm X W i := by
  rw [product3_payload_apply]
  show _ = ∑ k : Fin 256, X (ix2 (Cert.Spec.row i) k) * W (ix2 k (Cert.Spec.col i))
  exact Finset.sum_congr rfl fun k _ => by rw [hx k, hw k]

/-- The block indices of the three windows, decided once over the 25 points: the left operand's block row is the
    output's, which is the point itself; every block column is 0; the right operand's block is always (0, 0). -/
theorem product3_index_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays: entry (p, q) of the block sits at row
    2000 t + p of the array, the left block's row p is that same row of the left array, and the right block is the
    whole right array. -/
theorem product3_written (c : Dev nD) (t : Fin cfg3.N) :
    (dat3 (F := Ideal) V c).flushed 2 t = ((cfg3.win 2).blk t).view.read (Elt Ideal)
      (Cert.Spec.mm (V c main_v28 : S50000x256.Idx → EReal) (V c main_arg6 : S256x128.Idx → EReal)) := by
  show (cfg3.win 2).cut (grid3.coords t) ((dat3 (F := Ideal) V c).after 2 t) = _
  rw [after3_2]
  unfold out3_2
  rw [View.canon_unit_zero product3_origin]
  simp only [View.ld_unit_zero (S := S2000x256) product3_origin, View.ld_unit_zero (S := S256x128) product3_origin]
  funext j
  obtain ⟨e00, e01, e10, e11, e20, e21⟩ := product3_index_facts t
  show k3_pay1 (F := Ideal) (iblk3 V c 0 t) (iblk3 V c 1 t) j
    = Cert.Spec.mm (V c main_v28 : S50000x256.Idx → EReal) (V c main_arg6 : S256x128.Idx → EReal) (((cfg3.win 2).blk t).view.emb j)
  refine (congrArg (k3_pay1 (F := Ideal) (iblk3 V c 0 t) (iblk3 V c 1 t)) (eq_ix2 (n0 := 2000) (n1 := 128) j)).trans ?_
  refine product3_block_entry (V c main_v28) (V c main_arg6) (iblk3 V c 0 t) (iblk3 V c 1 t) (j 0) (j 1)
    (((cfg3.win 2).blk t).view.emb j) (fun k => ?_) (fun k => ?_)
  · show (V c main_v28 : S50000x256.Idx → EReal) (((cfg3.win 0).blk t).view.emb (ix2 (j 0) k))
      = (V c main_v28 : S50000x256.Idx → EReal) (ix2 (Cert.Spec.row (((cfg3.win 2).blk t).view.emb j)) k)
    refine congrArg (V c main_v28 : S50000x256.Idx → EReal) (funext fun a => Fin.ext ?_)
    match a with
    | ⟨0, _⟩ =>
      show win3_0.index t (0 : Fin 2) * 2000 + 1 * (j 0).val = win3_2.index t (0 : Fin 2) * 2000 + 1 * (j 0).val
      rw [e00]
    | ⟨1, _⟩ =>
      show win3_0.index t (1 : Fin 2) * 256 + 1 * k.val = k.val
      rw [e01]; omega
  · show (V c main_arg6 : S256x128.Idx → EReal) (((cfg3.win 1).blk t).view.emb (ix2 k (j 1)))
      = (V c main_arg6 : S256x128.Idx → EReal) (ix2 k (Cert.Spec.col (((cfg3.win 2).blk t).view.emb j)))
    refine congrArg (V c main_arg6 : S256x128.Idx → EReal) (funext fun a => Fin.ext ?_)
    match a with
    | ⟨0, _⟩ =>
      show win3_1.index t (0 : Fin 2) * 256 + 1 * k.val = k.val
      rw [e10]; omega
    | ⟨1, _⟩ =>
      show win3_1.index t (1 : Fin 2) * 128 + 1 * (j 1).val = win3_2.index t (1 : Fin 2) * 128 + 1 * (j 1).val
      rw [e11, e21]

/-- An index of the output array is in point t's block iff, on each axis, it lies in the block's range. -/
theorem product3_mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v29).slice (win3_2.rect t)).set ↔ _
  rw [View.set_slice_whole, Rect.mem_set_unit]
  exact Iff.rfl

/-- The 25 blocks of 2000 rows tile the 50000 rows: row r is in the block of point r / 2000, which is written back. -/
theorem product3_cover (i : S50000x128.Idx) :
    ∃ t : Fin cfg3.N, (cfg3.win 2).flush t = true ∧ i ∈ ((cfg3.win 2).blk t).view.set := by
  have hi0 : (i 0).val < 50000 := idx2_lt0 i
  have hi1 : (i 1).val < 128 := idx2_lt1 i
  have hN : grid3.N = 25 := N_3
  have hlt : (i 0).val / 2000 < cfg3.N := by show (i 0).val / 2000 < grid3.N; omega
  obtain ⟨-, -, -, -, e20, e21⟩ := product3_index_facts ⟨(i 0).val / 2000, hlt⟩
  refine ⟨⟨(i 0).val / 2000, hlt⟩, flush3_2 _, ?_⟩
  rw [product3_mem_block]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, hlt⟩ (1 : Fin 2) * 128 ≤ (i 1).val
      ∧ (i 1).val < win3_2.index ⟨(i 0).val / 2000, hlt⟩ (1 : Fin 2) * 128 + 128
    rw [e21]; omega

/-- The array the second product's output window ends holding: the product of the two arrays its input windows read. -/
theorem region3_arr (c : Dev nD) :
    ((dat3 (F := Ideal) V c).arrAt 2 cfg3.N : S50000x128.Idx → EReal)
      = Cert.Spec.mm (V c main_v28 : S50000x256.Idx → EReal) (V c main_arg6 : S256x128.Idx → EReal) := by
  show (dat3 (F := Ideal) V c).arrAt 2 cfg3.N = _
  exact (dat3 (F := Ideal) V c).arrAt_eq_of_cover 2
    (Cert.Spec.mm (V c main_v28 : S50000x256.Idx → EReal) (V c main_arg6 : S256x128.Idx → EReal))
    (fun t _ => product3_written V c t) product3_cover

end Cert.KernelIdeal.Val

end
-- ==== Proof.Region4.lean ====
import proofs.«181567_j39247411151462_1_alg».proof.Proof.Gen.KernelIdeal.Frame
import proofs.«181567_j39247411151462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- A [1, n] array read as a function of its column. -/
abbrev rowVec4 {n : Nat} (a : (⟨2, ![1, n]⟩ : Shape).Idx → EReal) : Fin n → EReal := fun q => a (ix2 (0 : Fin 1) q)

/-! ## The layout steps of a row norm kept as a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a [2000, 128] block, at row `p`: the sum over the 128 columns of that row. -/
theorem laneSum4 (v : FVec Ideal S2000x128 .f32) (h : S2000x128.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

/-! ## The body's arithmetic at an index -/

/-- The body's payload at row `p`, column `q` of a block: the block's entry plus the bias of column `q`, over the floored
    Euclidean norm of row `p` of (block plus bias row). -/
theorem pay4_apply (x0 : Vec Ideal S2000x128 .f32) (x1 : Vec Ideal S1x128 .f32) (p : Fin 2000) (q : Fin 128) :
    k4_pay1 (F := Ideal) x0 x1 (ix2 p q)
      = Ideal.div (x0 (ix2 p q) + x1 (ix2 (0 : Fin 1) q))
          (max (Ideal.sqrt (∑ k : Fin 128, (x0 (ix2 p k) + x1 (ix2 (0 : Fin 1) k)) * (x0 (ix2 p k) + x1 (ix2 (0 : Fin 1) k))))
            (Ideal.ofBits .f32 0x2B8CBCCC#32)) := by
  unfold k4_pay1
  dsimp only
  rw [divf_apply, addf_apply, shapeCast_self, shapeCast_self, broadcastTo_1b_ab_apply, broadcastTo_a1_ab_apply, maximumf_apply,
    broadcast_apply]
  refine congrArg (Ideal.div _) (congrArg₂ max ?_ rfl)
  show Ideal.sqrt _ = Ideal.sqrt _
  refine congrArg Ideal.sqrt ?_
  rw [shapeCast_a_a1_apply]
  refine (laneSum4 _ _ _ _ p).trans (Finset.sum_congr rfl fun k _ => ?_)
  rw [mulf_apply, addf_apply, broadcastTo_1b_ab_apply]

/-! ## From blocks to the array -/

/-- The whole-buffer rectangle's zero offsets, as a constant function. -/
theorem zeroOff4 : (![0, 0] : Fin 2 → Nat) = fun _ => 0 := funext fun a => by fin_cases a <;> rfl

/-- The index maps over the grid: at point `t` the aggregated array's window and the output's window both stand on
    block row `t` (block column 0), and the bias row's window on its one block. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The payload at `(p, q)` of a block whose row `p` is row `r` of the array `a0`, with the bias row `a1`: entry `(r, q)`
    of the rows of `a0` plus bias over their floored norms. Only row `r` of `a0` and the bias row enter. -/
theorem block4_apply (x0 : Vec Ideal S2000x128 .f32) (x1 : Vec Ideal S1x128 .f32)
    (a0 : S50000x128.Idx → EReal) (a1 : S1x128.Idx → EReal) (r : Fin 50000) (p : Fin 2000) (q : Fin 128)
    (h0 : ∀ k : Fin 128, x0 (ix2 p k) = a0 (ix2 r k))
    (h1 : ∀ k : Fin 128, x1 (ix2 (0 : Fin 1) k) = a1 (ix2 (0 : Fin 1) k)) :
    k4_pay1 (F := Ideal) x0 x1 (ix2 p q) = Cert.Spec.l2rows (Cert.Spec.addBias a0 (rowVec4 a1)) (ix2 r q) := by
  rw [pay4_apply, Cert.Spec.l2rows_ix2]
  simp only [h0, h1]
  rfl

/-- What point `t` writes back is block `t` of the normalised rows of (aggregated array plus bias). -/
theorem flushed4_eq (c : Dev nD) (t : Fin cfg4.N) :
    (dat4 (F := Ideal) V c).flushed 2 t = ((cfg4.win 2).blk t).view.read (Elt Ideal)
      (Cert.Spec.l2rows (Cert.Spec.addBias (V c main_v39 : S50000x128.Idx → EReal) (rowVec4 (V c main_v40 : S1x128.Idx → EReal)))) := by
  show (cfg4.win 2).cut (grid4.coords t) ((dat4 (F := Ideal) V c).after 2 t) = _
  rw [after4_2]
  unfold out4_2
  rw [View.canon_unit_zero zeroOff4]
  simp only [View.ld_unit_zero (S := S2000x128) zeroOff4, View.ld_unit_zero (S := S1x128) zeroOff4]
  obtain ⟨e00, e01, e10, e11, e20, e21⟩ := blockIdx4 t
  have ht : t.val < 25 := lt_of_lt_of_eq t.isLt N_4
  funext j
  obtain ⟨p, q, rfl⟩ : ∃ (p : Fin 2000) (q : Fin 128), j = ix2 p q := ⟨j 0, j 1, eq_ix2 j⟩
  have hr : t.val * 2000 + p.val < 50000 := by have := p.isLt; omega
  have hemb : ((cfg4.win 2).blk t).view.emb (ix2 p q) = ix2 (⟨t.val * 2000 + p.val, hr⟩ : Fin 50000) q := by
    funext a; apply Fin.ext
    match a with
    | ⟨0, _⟩ => show win4_2.index t (0 : Fin 2) * 2000 + 1 * p.val = t.val * 2000 + p.val; omega
    | ⟨1, _⟩ => show win4_2.index t (1 : Fin 2) * 128 + 1 * q.val = q.val; omega
  show k4_pay1 (F := Ideal) (iblk4 V c 0 t) (iblk4 V c 1 t) (ix2 p q)
    = Cert.Spec.l2rows (Cert.Spec.addBias (V c main_v39 : S50000x128.Idx → EReal) (rowVec4 (V c main_v40 : S1x128.Idx → EReal)))
        (((cfg4.win 2).blk t).view.emb (ix2 p q))
  rw [hemb]
  refine block4_apply (iblk4 V c 0 t) (iblk4 V c 1 t) (V c main_v39) (V c main_v40) ⟨t.val * 2000 + p.val, hr⟩ p q (fun k => ?_) (fun k => ?_)
  · show V c main_v39 (((cfg4.win 0).blk t).view.emb (ix2 p k)) = V c main_v39 (ix2 (⟨t.val * 2000 + p.val, hr⟩ : Fin 50000) k)
    refine congrArg (V c main_v39) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  · show V c main_v40 (((cfg4.win 1).blk t).view.emb (ix2 (0 : Fin 1) k)) = V c main_v40 (ix2 (0 : Fin 1) k)
    refine congrArg (V c main_v40) (funext fun a => Fin.ext ?_)
    match a with
    | ⟨0, _⟩ => show win4_1.index t (0 : Fin 2) * 1 + 1 * 0 = 0; omega
    | ⟨1, _⟩ => show win4_1.index t (1 : Fin 2) * 128 + 1 * k.val = k.val; omega

/-- An index of the output array is in point `t`'s block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v41).slice (win4_2.rect t)).set ↔ _
  rw [View.set_slice_whole, Rect.mem_set_unit]
  exact Iff.rfl

/-- The 25 blocks of 2000 rows tile the 50000 rows: row `r` lies in the block of point `r / 2000`, which is written back. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 25 := N_4
  let t : Fin cfg4.N := ⟨(i 0).val / 2000, by show (i 0).val / 2000 < grid4.N; omega⟩
  obtain ⟨-, -, -, -, e20, e21⟩ := blockIdx4 t
  have e20' : win4_2.index t (0 : Fin 2) = (i 0).val / 2000 := e20
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The last region's output array: each row of (aggregated array plus bias row) over its floored Euclidean norm. -/
theorem region4_arr (c : Dev nD) :
    ((dat4 (F := Ideal) V c).arrAt 2 cfg4.N : S50000x128.Idx → EReal)
      = Cert.Spec.l2rows (Cert.Spec.addBias (V c main_v39 : S50000x128.Idx → EReal) (rowVec4 (V c main_v40 : S1x128.Idx → EReal))) := by
  exact (dat4 (F := Ideal) V c).arrAt_eq_of_cover 2 _ (fun t _ => flushed4_eq V c t) cover4

end Cert.KernelIdeal.Val

end
-- ==== Proof.KernelValue.lean ====
import proofs.«181567_j39247411151462_1_alg».proof.Proof.Gen.KernelIdeal.Frame
import proofs.«181567_j39247411151462_1_alg».proof.Proof.Spec
import proofs.«181567_j39247411151462_1_alg».proof.Proof.KernelHost
import proofs.«181567_j39247411151462_1_alg».proof.Proof.Region0
import proofs.«181567_j39247411151462_1_alg».proof.Proof.Region1
import proofs.«181567_j39247411151462_1_alg».proof.Proof.Region2
import proofs.«181567_j39247411151462_1_alg».proof.Proof.Region3
import proofs.«181567_j39247411151462_1_alg».proof.Proof.Region4
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- A rank-1 array read as a function of its coordinate. -/
abbrev vec {n : Nat} (a : (⟨1, ![n]⟩ : Shape).Idx → EReal) : Fin n → EReal := fun q => a (ix1 q)

/-- The argument arrays on device `c`, at their literal types. -/
abbrev a0 (c : Dev nD) : S50000x512.Idx → EReal := m ((c : Thread nD τ).loc main_arg0)
abbrev a1 (c : Dev nD) : S2x800000.Idx → BitVec 32 := m ((c : Thread nD τ).loc main_arg1)
abbrev a2 (c : Dev nD) : S512x256.Idx → EReal := m ((c : Thread nD τ).loc main_arg2)
abbrev a3 (c : Dev nD) : S256.Idx → EReal := m ((c : Thread nD τ).loc main_arg3)
abbrev a4 (c : Dev nD) : S256.Idx → EReal := m ((c : Thread nD τ).loc main_arg4)
abbrev a5 (c : Dev nD) : S256.Idx → EReal := m ((c : Thread nD τ).loc main_arg5)
abbrev a6 (c : Dev nD) : S256x128.Idx → EReal := m ((c : Thread nD τ).loc main_arg6)
abbrev a7 (c : Dev nD) : S128.Idx → EReal := m ((c : Thread nD τ).loc main_arg7)

/-- A vector recast as a one-row matrix reads, in row 0 and column q, the vector's entry q. -/
theorem shapeCast_row256 (a : S256.Idx → EReal) (q : Fin 256) :
    shapeCast S1x256 a shapeCasts_S256_S1x256 (ix2 (0 : Fin 1) q) = a (ix1 q) :=
  shapeCast_apply a shapeCasts_S256_S1x256 (ix2 (0 : Fin 1) q) (ix1 q)
    (by rewrite [Shape.rowMajor_val_two, Shape.rowMajor_val_one]; show q.val = 0 * 256 + q.val; omega)

theorem shapeCast_row128 (a : S128.Idx → EReal) (q : Fin 128) :
    shapeCast S1x128 a shapeCasts_S128_S1x128 (ix2 (0 : Fin 1) q) = a (ix1 q) :=
  shapeCast_apply a shapeCasts_S128_S1x128 (ix2 (0 : Fin 1) q) (ix1 q)
    (by rewrite [Shape.rowMajor_val_two, Shape.rowMajor_val_one]; show q.val = 0 * 128 + q.val; omega)

/-- The first layer's features: the aggregated product plus the first bias. -/
def feat (c : Dev nD) : Fin 50000 → Fin 256 → EReal :=
  Cert.Spec.addBias (agg1 (a1 m c) (Cert.Spec.mm (a0 m c) (a2 m c))) (vec (a3 m c))

/-- The first product's array. -/
theorem W2_v4 (c : Dev nD) : (W2 m ρ c (Proc.devRef .tc main_v4) : S50000x256.Idx → EReal) = Cert.Spec.mm (a0 m c) (a2 m c) := by
  have h := region0_arr (V1 m ρ) c
  rw [V1_arg0, V1_arg2] at h
  exact (W2_arr m ρ c 2).trans h

/-- The statistics region finds the first layer's features. -/
theorem feat1_eq (c : Dev nD) : feat1 (V3 m ρ) c = feat m c := by
  unfold feat1 feat
  rw [V3_v14, V3_v15, W2_v4]
  funext r q
  show _ + _ = _ + _
  exact congrArg _ (shapeCast_row256 _ q)

/-- The sums row after the statistics: each column's sum of the features. -/
theorem sums_eq (c : Dev nD) : sumsRow m ρ c = fun i => Cert.Spec.colSum (feat m c) (Cert.Spec.col i) := by
  have h := region1_sum (V3 m ρ) c
  rw [feat1_eq] at h
  exact (W4_arr m ρ c 2).trans h

/-- The sums-of-squares row after the statistics. -/
theorem sqs_eq (c : Dev nD) :
    sqsRow m ρ c = fun i => Cert.Spec.colSum (fun r q => feat m c r q * feat m c r q) (Cert.Spec.col i) := by
  have h := region1_sumsq (V3 m ρ) c
  rw [feat1_eq] at h
  exact (W4_arr m ρ c 3).trans h

/-- The mean row is each column's mean. -/
theorem mean_row (c : Dev nD) :
    rowVec2 (V5 m ρ c main_v18 : S1x256.Idx → EReal) = Cert.Spec.meanOf (feat m c) := by
  funext q
  show (V5 m ρ c main_v18 : S1x256.Idx → EReal) (ix2 (0 : Fin 1) q) = _
  rw [V5_v18, sums_eq]
  rfl

/-- The reciprocal deviation row, from the variance as mean of squares less squared mean. -/
theorem invstd_row (c : Dev nD) :
    rowVec2 (V5 m ρ c main_v25 : S1x256.Idx → EReal) = Cert.Spec.invStd (Cert.Spec.varMoments (feat m c)) := by
  funext q
  show (V5 m ρ c main_v25 : S1x256.Idx → EReal) (ix2 (0 : Fin 1) q) = _
  rw [V5_v25, sums_eq, sqs_eq]
  rfl

theorem gamma_row (c : Dev nD) : rowVec2 (V5 m ρ c main_v26 : S1x256.Idx → EReal) = vec (a4 m c) := by
  funext q
  show (V5 m ρ c main_v26 : S1x256.Idx → EReal) (ix2 (0 : Fin 1) q) = _
  rw [V5_v26]
  exact shapeCast_row256 _ q

theorem beta_row (c : Dev nD) : rowVec2 (V5 m ρ c main_v27 : S1x256.Idx → EReal) = vec (a5 m c) := by
  funext q
  show (V5 m ρ c main_v27 : S1x256.Idx → EReal) (ix2 (0 : Fin 1) q) = _
  rw [V5_v27]
  exact shapeCast_row256 _ q

/-- The hidden features: normalised, scaled, shifted and clamped, with the variance as the kernel's host code takes it. -/
def hidden (c : Dev nD) : Fin 50000 → Fin 256 → EReal :=
  Cert.Spec.hiddenWith Cert.Spec.varMoments (feat m c) (vec (a4 m c)) (vec (a5 m c))

/-- The normalisation region's array. -/
theorem W6_v28 (c : Dev nD) : (W6 m ρ c (Proc.devRef .tc main_v28) : S50000x256.Idx → EReal) = Cert.Spec.toArr (hidden m c) := by
  have h := region2_arr (V5 m ρ) c
  have hf : Cert.Spec.addBias (V5 m ρ c main_v14 : S50000x256.Idx → EReal) (rowVec2 (V5 m ρ c main_v15 : S1x256.Idx → EReal)) = feat m c := by
    rw [V5_v14, V5_v15]
    exact feat1_eq m ρ c
  rw [hf, mean_row, invstd_row, gamma_row, beta_row] at h
  exact (W6_arr m ρ c 6).trans h

/-- The second product's array. -/
theorem W7_v29 (c : Dev nD) :
    (W7 m ρ c (Proc.devRef .tc main_v29) : S50000x128.Idx → EReal) = Cert.Spec.mm (Cert.Spec.toArr (hidden m c)) (a6 m c) := by
  have h := region3_arr (V6 m ρ) c
  have h28 : (V6 m ρ c main_v28 : S50000x256.Idx → EReal) = Cert.Spec.toArr (hidden m c) := W6_v28 m ρ c
  rw [V6_arg6, h28] at h
  exact (W7_arr m ρ c 2).trans h

/-- THE KERNEL PROGRAM'S RESULT: the shared computation with the variance as the mean of the squares less the squared mean. -/
theorem W9_v41 (c : Dev nD) :
    (W9 m ρ c (Proc.devRef .tc main_v41) : S50000x128.Idx → EReal)
      = Cert.Spec.outWith Cert.Spec.varMoments (agg1 (a1 m c)) (agg2 (a1 m c)) (a0 m c) (a2 m c) (vec (a3 m c)) (vec (a4 m c))
          (vec (a5 m c)) (a6 m c) (vec (a7 m c)) := by
  have h := region4_arr (V8 m ρ) c
  have hb : rowVec4 (shapeCast S1x128 (a7 m c) shapeCasts_S128_S1x128) = vec (a7 m c) := funext fun q => shapeCast_row128 _ q
  rw [V8_v39, V8_v40, W7_v29, hb] at h
  exact (W9_arr m ρ c 2).trans h

end Cert.KernelIdeal.Val

end
-- ==== Proof.RefValue.lean ====
import proofs.«181567_j39247411151462_1_alg».proof.Proof.Gen.ReferenceIdeal.Run
import proofs.«181567_j39247411151462_1_alg».proof.Proof.Gen.ReferenceIdeal.Read
import proofs.«181567_j39247411151462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The first layer's neighbour aggregation as the reference's operations spell it: the rows of `h` named by the edges'
    sources (negative indices wrapped by the row count), added into the zero array at the rows the edges' targets name. -/
def agg1 (x1 : (⟨S2x800000, .i32⟩ : BufTy).Contents (Elt Ideal)) (h : S50000x256.Idx → EReal) : S50000x256.Idx → EReal :=
  Host.scatterAdd (F := Ideal) (φ := .f32) scatter_S50000x256_S800000x1_S800000x256_1_0_0_1 (val_main_v12 (F := Ideal)) (val_main_v13 (F := Ideal) x1)
    (Host.gather gather_S50000x256_S800000x1_S800000x256_1_0_n_n_0_1_1256 h (val_main_v10 (F := Ideal) x1))

/-- The second layer's neighbour aggregation, the same over 128 columns. -/
def agg2 (x1 : (⟨S2x800000, .i32⟩ : BufTy).Contents (Elt Ideal)) (h : S50000x128.Idx → EReal) : S50000x128.Idx → EReal :=
  Host.scatterAdd (F := Ideal) (φ := .f32) scatter_S50000x128_S800000x1_S800000x128_1_0_0_1 (val_main_v52 (F := Ideal)) (val_main_v53 (F := Ideal) x1)
    (Host.gather gather_S50000x128_S800000x1_S800000x128_1_0_n_n_0_1_1128 h (val_main_v50 (F := Ideal) x1))

/-- A rank-1 array read as a function of its coordinate. -/
abbrev vec {n : Nat} (a : (⟨1, ![n]⟩ : Shape).Idx → EReal) : Fin n → EReal := fun q => a (ix1 q)

section Stages

variable (x0 : (⟨S50000x512, .f32⟩ : BufTy).Contents (Elt Ideal)) (x1 : (⟨S2x800000, .i32⟩ : BufTy).Contents (Elt Ideal))
  (x2 : (⟨S512x256, .f32⟩ : BufTy).Contents (Elt Ideal)) (x3 x4 x5 : (⟨S256, .f32⟩ : BufTy).Contents (Elt Ideal))
  (x6 : (⟨S256x128, .f32⟩ : BufTy).Contents (Elt Ideal)) (x7 : (⟨S128, .f32⟩ : BufTy).Contents (Elt Ideal))

/-! ## The composed index maps, by coordinates -/

theorem lidx4 (p : Fin 50000) (q : Fin 256) (k : Fin 512) : lidx_main_v4 (ix2 p q) k = ix2 p k :=
  funext fun a => Fin.ext (by match a with | ⟨0, _⟩ => rfl | ⟨1, _⟩ => rfl)
theorem ridx4 (p : Fin 50000) (q : Fin 256) (k : Fin 512) : ridx_main_v4 (ix2 p q) k = ix2 k q :=
  funext fun a => Fin.ext (by match a with | ⟨0, _⟩ => rfl | ⟨1, _⟩ => rfl)
theorem idx15_16 (r : Fin 50000) (c : Fin 256) : idx_main_v15 (idx_main_v16 (ix2 r c)) = ix1 c :=
  funext fun a => Fin.ext (by match a with | ⟨0, _⟩ => rfl)
theorem idx18 (c : Fin 256) (k : Fin 50000) : idx_main_v18 (ix1 c) k = ix2 k c :=
  funext fun a => Fin.ext (by match a with | ⟨0, _⟩ => rfl | ⟨1, _⟩ => rfl)

/-! ## The first layer before the normalisation -/

/-- The first product is the matrix product of the features and the first weights. -/
theorem v4_eq : val_main_v4 (F := Ideal) x0 x2 = Cert.Spec.mm x0 x2 := by
  funext i
  obtain ⟨p, q, rfl⟩ : ∃ (p : Fin 50000) (q : Fin 256), i = ix2 p q := ⟨_, _, eq_ix2 i⟩
  rw [val_main_v4_apply, Cert.Spec.mm_ix2]
  refine Finset.sum_congr rfl fun k _ => ?_
  rw [lidx4, ridx4]

/-- The first aggregation is applied to that product. -/
theorem v14_eq : val_main_v14 (F := Ideal) x0 x1 x2 = agg1 x1 (Cert.Spec.mm x0 x2) := by
  unfold val_main_v14 val_main_v11 agg1
  rw [v4_eq]

/-- The first layer's features before the normalisation, by coordinates: the aggregated product plus the bias of the column. -/
abbrev hid : Fin 50000 → Fin 256 → EReal := Cert.Spec.addBias (agg1 x1 (Cert.Spec.mm x0 x2)) (vec x3)

theorem v17_at (r : Fin 50000) (c : Fin 256) :
    val_main_v17 (F := Ideal) x0 x1 x2 x3 (ix2 r c) = hid x0 x1 x2 x3 r c := by
  rw [val_main_v17_apply, val_main_v16_apply, val_main_v15_apply, v14_eq, idx15_16]
  rfl

/-- The column mean: the zero word plus the sum down the column, over the row count. -/
theorem v20_at (c : Fin 256) :
    val_main_v20 (F := Ideal) x0 x1 x2 x3 (ix1 c) = Cert.Spec.meanOf (hid x0 x1 x2 x3) c := by
  rw [val_main_v20_apply, val_main_v18_apply, val_main_v19_apply, val_main_cst_1_apply, val_main_cst_2_apply]
  simp only [Ideal.hostDivf_def, Ideal.ofBits_def, Ideal.ofBits_zero_f32, zero_add]
  unfold Cert.Spec.meanOf Cert.Spec.colSum
  refine congrArg (fun s => Ideal.div s Cert.Spec.cN) (Finset.sum_congr rfl fun k _ => ?_)
  rw [idx18, v17_at]

/-! ## The variance and the reciprocal standard deviation -/

theorem idx21_22 (r : Fin 50000) (c : Fin 256) : idx_main_v21 (idx_main_v22 (ix2 r c)) = ix1 c :=
  funext fun a => Fin.ext (by match a with | ⟨0, _⟩ => rfl)
theorem idx25 (c : Fin 256) (k : Fin 50000) : idx_main_v25 (ix1 c) k = ix2 k c :=
  funext fun a => Fin.ext (by match a with | ⟨0, _⟩ => rfl | ⟨1, _⟩ => rfl)
theorem idx28_29 (r : Fin 50000) (c : Fin 256) : idx_main_v28 (idx_main_v29 (ix2 r c)) = ix1 c :=
  funext fun a => Fin.ext (by match a with | ⟨0, _⟩ => rfl)
theorem idx34_35 (r : Fin 50000) (c : Fin 256) : idx_main_v34 (idx_main_v35 (ix2 r c)) = ix1 c :=
  funext fun a => Fin.ext (by match a with | ⟨0, _⟩ => rfl)
theorem idx37_38 (r : Fin 50000) (c : Fin 256) : idx_main_v37 (idx_main_v38 (ix2 r c)) = ix1 c :=
  funext fun a => Fin.ext (by match a with | ⟨0, _⟩ => rfl)
theorem idx40_41 (r : Fin 50000) (c : Fin 256) : idx_main_v40 (idx_main_v41 (ix2 r c)) = ix1 c :=
  funext fun a => Fin.ext (by match a with | ⟨0, _⟩ => rfl)

/-- The mean spread over the rows. -/
theorem v22_at (r : Fin 50000) (c : Fin 256) :
    val_main_v22 (F := Ideal) x0 x1 x2 x3 (ix2 r c) = Cert.Spec.meanOf (hid x0 x1 x2 x3) c := by
  rw [val_main_v22_apply, val_main_v21_apply, idx21_22, v20_at]

/-- The variance of a column: the mean of the squared deviations from the column mean. -/
theorem v27_at (c : Fin 256) :
    val_main_v27 (F := Ideal) x0 x1 x2 x3 (ix1 c) = Cert.Spec.varCentred (hid x0 x1 x2 x3) c := by
  rw [val_main_v27_apply, val_main_v25_apply, val_main_v26_apply, val_main_cst_3_apply, val_main_cst_4_apply]
  simp only [Ideal.hostDivf_def, Ideal.ofBits_def, Ideal.ofBits_zero_f32, zero_add]
  unfold Cert.Spec.varCentred Cert.Spec.colSum
  refine congrArg (fun s => Ideal.div s Cert.Spec.cN) (Finset.sum_congr rfl fun k _ => ?_)
  rw [idx25, val_main_v24_apply, val_main_v23_apply, v17_at, v22_at]
  rfl

/-- The reciprocal standard deviation of a column. -/
theorem v33_at (c : Fin 256) :
    val_main_v33 (F := Ideal) x0 x1 x2 x3 (ix1 c) = Cert.Spec.invStd (Cert.Spec.varCentred (hid x0 x1 x2 x3)) c := by
  rw [val_main_v33_apply, val_main_v32_apply, val_main_v31_apply, val_main_cst_5_apply, v27_at]
  rfl

/-! ## Normalise, scale, shift, clamp -/

/-- The mean spread over the rows, a second time. -/
theorem v29_at (r : Fin 50000) (c : Fin 256) :
    val_main_v29 (F := Ideal) x0 x1 x2 x3 (ix2 r c) = Cert.Spec.meanOf (hid x0 x1 x2 x3) c := by
  rw [val_main_v29_apply, val_main_v28_apply, idx28_29, v20_at]

/-- The reciprocal standard deviation spread over the rows. -/
theorem v35_at (r : Fin 50000) (c : Fin 256) :
    val_main_v35 (F := Ideal) x0 x1 x2 x3 (ix2 r c) = Cert.Spec.invStd (Cert.Spec.varCentred (hid x0 x1 x2 x3)) c := by
  rw [val_main_v35_apply, val_main_v34_apply, idx34_35, v33_at]

/-- The scale spread over the rows. -/
theorem v38_at (r : Fin 50000) (c : Fin 256) : val_main_v38 (F := Ideal) x4 (ix2 r c) = vec x4 c := by
  rw [val_main_v38_apply, val_main_v37_apply, idx37_38]

/-- The shift spread over the rows. -/
theorem v41_at (r : Fin 50000) (c : Fin 256) : val_main_v41 (F := Ideal) x5 (ix2 r c) = vec x5 c := by
  rw [val_main_v41_apply, val_main_v40_apply, idx40_41]

/-- The hidden features after the normalisation and the clamp at zero, by coordinates. -/
abbrev hidden : Fin 50000 → Fin 256 → EReal :=
  Cert.Spec.hiddenWith Cert.Spec.varCentred (hid x0 x1 x2 x3) (vec x4) (vec x5)

theorem v43_at (r : Fin 50000) (c : Fin 256) :
    val_main_v43 (F := Ideal) x0 x1 x2 x3 x4 x5 (ix2 r c) = hidden x0 x1 x2 x3 x4 x5 r c := by
  rw [val_main_v43_apply, val_main_v42_apply, val_main_v39_apply, val_main_v36_apply, val_main_v30_apply,
    v17_at, v29_at, v35_at, v38_at, v41_at, val_main_call0_v0_apply, val_main_call0_cst_apply]
  simp only [Ideal.ofBits_def, Ideal.ofBits_zero_f32]
  rfl

/-! ## The second layer -/

theorem lidx44 (p : Fin 50000) (q : Fin 128) (k : Fin 256) : lidx_main_v44 (ix2 p q) k = ix2 p k :=
  funext fun a => Fin.ext (by match a with | ⟨0, _⟩ => rfl | ⟨1, _⟩ => rfl)
theorem ridx44 (p : Fin 50000) (q : Fin 128) (k : Fin 256) : ridx_main_v44 (ix2 p q) k = ix2 k q :=
  funext fun a => Fin.ext (by match a with | ⟨0, _⟩ => rfl | ⟨1, _⟩ => rfl)
theorem idx55_56 (r : Fin 50000) (c : Fin 128) : idx_main_v55 (idx_main_v56 (ix2 r c)) = ix1 c :=
  funext fun a => Fin.ext (by match a with | ⟨0, _⟩ => rfl)

/-- The second product is the matrix product of the hidden features and the second weights. -/
theorem v44_eq : val_main_v44 (F := Ideal) x0 x1 x2 x3 x4 x5 x6
    = Cert.Spec.mm (Cert.Spec.toArr (hidden x0 x1 x2 x3 x4 x5)) x6 := by
  funext i
  obtain ⟨p, q, rfl⟩ : ∃ (p : Fin 50000) (q : Fin 128), i = ix2 p q := ⟨_, _, eq_ix2 i⟩
  rw [val_main_v44_apply, Cert.Spec.mm_ix2]
  refine Finset.sum_congr rfl fun k _ => ?_
  rw [lidx44, ridx44, v43_at, Cert.Spec.toArr_ix2]

/-- The second aggregation is applied to that product. -/
theorem v54_eq : val_main_v54 (F := Ideal) x0 x1 x2 x3 x4 x5 x6
    = agg2 x1 (Cert.Spec.mm (Cert.Spec.toArr (hidden x0 x1 x2 x3 x4 x5)) x6) := by
  unfold val_main_v54 val_main_v51 agg2
  rw [v44_eq]

/-- The second layer's features before the row normalisation, by coordinates. -/
abbrev feat : Fin 50000 → Fin 128 → EReal :=
  Cert.Spec.addBias (agg2 x1 (Cert.Spec.mm (Cert.Spec.toArr (hidden x0 x1 x2 x3 x4 x5)) x6)) (vec x7)

theorem v57_at (r : Fin 50000) (c : Fin 128) :
    val_main_v57 (F := Ideal) x0 x1 x2 x3 x4 x5 x6 x7 (ix2 r c) = feat x0 x1 x2 x3 x4 x5 x6 x7 r c := by
  rw [val_main_v57_apply, val_main_v56_apply, val_main_v55_apply, v54_eq, idx55_56]
  rfl

/-! ## The row normalisation -/

theorem idx61 (r : Fin 50000) (c : Fin 128) : idx_main_v61 (ix2 r c) = ix2 r (0 : Fin 1) :=
  funext fun a => Fin.ext (by match a with | ⟨0, _⟩ => rfl | ⟨1, _⟩ => rfl)
theorem idxc1v2 (r : Fin 50000) : idx_main_call1_v2 (ix2 r (0 : Fin 1)) = ix1 r :=
  funext fun a => Fin.ext (by match a with | ⟨0, _⟩ => rfl)
theorem idxc1v1 (r : Fin 50000) (k : Fin 128) : idx_main_call1_v1 (ix1 r) k = ix2 r k :=
  funext fun a => Fin.ext (by match a with | ⟨0, _⟩ => rfl | ⟨1, _⟩ => rfl)

/-- The floored Euclidean norm of a row, spread over the row's columns. -/
theorem v61_at (r : Fin 50000) (c : Fin 128) :
    val_main_v61 (F := Ideal) x0 x1 x2 x3 x4 x5 x6 x7 (ix2 r c) = Cert.Spec.rowNorm (feat x0 x1 x2 x3 x4 x5 x6 x7) r := by
  rw [val_main_v61_apply, idx61, val_main_v60_apply, val_main_v58_apply, val_main_call1_v2_apply, idxc1v2,
    val_main_call1_v1_apply, val_main_v59_apply, val_main_cst_9_apply, val_main_call1_cst_apply]
  simp only [Ideal.maximumf_def, Ideal.hostUnary_sqrt_def, Ideal.ofBits_def, Ideal.ofBits_zero_f32, zero_add]
  unfold Cert.Spec.rowNorm
  refine congrArg (fun s => max (Ideal.sqrt s) Cert.Spec.cTiny) (Finset.sum_congr rfl fun k _ => ?_)
  rw [idxc1v1, val_main_call1_v0_apply, v57_at]
  rfl

end Stages

/-- The reference's result is the shared computation with the variance taken as the mean of the squared deviations. -/
theorem result_eq (x0 : (⟨S50000x512, .f32⟩ : BufTy).Contents (Elt Ideal)) (x1 : (⟨S2x800000, .i32⟩ : BufTy).Contents (Elt Ideal))
    (x2 : (⟨S512x256, .f32⟩ : BufTy).Contents (Elt Ideal)) (x3 x4 x5 : (⟨S256, .f32⟩ : BufTy).Contents (Elt Ideal))
    (x6 : (⟨S256x128, .f32⟩ : BufTy).Contents (Elt Ideal)) (x7 : (⟨S128, .f32⟩ : BufTy).Contents (Elt Ideal)) :
    val_main_v62 (F := Ideal) x0 x1 x2 x3 x4 x5 x6 x7
      = Cert.Spec.outWith Cert.Spec.varCentred (agg1 x1) (agg2 x1) x0 x2 (vec x3) (vec x4) (vec x5) x6 (vec x7) := by
  funext i
  obtain ⟨r, c, rfl⟩ : ∃ (r : Fin 50000) (c : Fin 128), i = ix2 r c := ⟨_, _, eq_ix2 i⟩
  rw [val_main_v62_apply, v57_at, v61_at]
  unfold Cert.Spec.outWith
  rw [Cert.Spec.l2rows_ix2]
  rfl

end Cert.ReferenceIdeal.RefValue

end
-- ==== Proof.Algebra.lean ====
import proofs.«181567_j39247411151462_1_alg».proof.Proof.Spec
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx

noncomputable section

namespace Cert.Spec

open Idealize.ShloMosaic Idealize.ShloMosaic.ValueIdx

/-- An extended real that is a real number (neither infinity). -/
def IsReal (x : EReal) : Prop := ∃ r : ℝ, x = (r : EReal)

/-- A real number, seen as an extended real, is real. -/
theorem isReal_coe (r : ℝ) : IsReal (r : EReal) := ⟨r, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real: by induction on the index set, the empty sum being 0. -/
theorem isReal_sum {ι : Type*} (s : Finset ι) (f : ι → EReal) (h : ∀ i ∈ s, IsReal (f i)) :
    IsReal (∑ i ∈ s, f i) := by
  classical
  revert h
  refine Finset.induction_on s ?_ ?_
  · intro _
    exact ⟨0, by simp⟩
  · intro a t ha ih h
    rw [Finset.sum_insert ha]
    exact (h a (Finset.mem_insert_self a t)).add (ih fun i hi => h i (Finset.mem_insert_of_mem hi))

/-- The inclusion of the reals in the extended reals carries a finite sum to the sum of the images. -/
theorem coe_finset_sum {ι : Type*} (s : Finset ι) (g : ι → ℝ) :
    ((∑ i ∈ s, g i : ℝ) : EReal) = ∑ i ∈ s, (g i : EReal) := by
  classical
  refine Finset.induction_on s (by simp) ?_
  intro a t ha ih
  rw [Finset.sum_insert ha, Finset.sum_insert ha, EReal.coe_add, ih]

/-- The row count's word denotes the real number 50000: sign 0, exponent field 142 (so 2^15 after the bias 127),
    significand field 0x435000 = 4411392, and (2^23 + 4411392) · 2^(15 - 23) = 12800000 / 256 = 50000. -/
theorem cN_eq : cN = ((50000 : ℝ) : EReal) := by
  simp [Ideal.ofBits, Ideal.ieee, -EReal.coe_mul]; norm_num

/-- A product of matrices of real numbers is a matrix of real numbers: each entry is a finite sum of products of reals. -/
theorem mm_isReal {M K N : Nat} (x : Arr2 M K) (w : Arr2 K N) (hx : ∀ i, IsReal (x i)) (hw : ∀ i, IsReal (w i)) :
    ∀ i, IsReal (mm x w i) := by
  intro i
  exact isReal_sum _ _ fun k _ => (hx _).mul (hw _)

/-- Adding a real bias to real entries keeps them real. -/
theorem addBias_isReal {R C : Nat} (a : Arr2 R C) (b : Fin C → EReal) (ha : ∀ i, IsReal (a i)) (hb : ∀ c, IsReal (b c)) :
    ∀ r c, IsReal (addBias a b r c) := by
  intro r c
  exact (ha _).add (hb c)

/-- A gather re-indexes its operand, and an accumulating scatter adds finitely many of the updates to each entry of its
    operand: from real entries both give real entries, whatever the index arrays hold. -/
theorem scatterAdd_gather_isReal {s si si' t : Shape} {w w' : Nat} (sd : ScatterDims s si' t) (gd : GatherDims s si t)
    (z a : s.Idx → EReal) (hz : ∀ i, IsReal (z i)) (ha : ∀ i, IsReal (a i)) (idx : IVec si w) (idx' : IVec si' w') :
    ∀ i, IsReal (Host.scatterAdd (F := Ideal) (φ := .f32) sd z idx' (Host.gather gd a idx) i) := by
  intro i
  -- entry i of the result is z i plus the sum of those gathered entries whose scatter index is i;
  -- every gathered entry is an entry of a
  show IsReal (z i + ∑ j ∈ Finset.univ.filter (fun j => sd.resultIdx? j idx' = some i), a (gd.operandIdx j idx))
  exact (hz i).add (isReal_sum _ _ fun j _ => ha _)

/-- The identity in the reals: with S = Σ g, Q = Σ g², n = 50000 terms and m = S/n,
    Σ (g − m)² = Q − 2 m S + n m², so Σ (g − m)²/n = Q/n − 2 S²/n² + S²/n² = Q/n − (S/n)². -/
theorem real_var_identity (g : Fin 50000 → ℝ) :
    (∑ r, g r * g r) * (1 / 50000) - (∑ r, g r) * (1 / 50000) * ((∑ r, g r) * (1 / 50000))
      = (∑ r, (g r - (∑ r, g r) * (1 / 50000)) * (g r - (∑ r, g r) * (1 / 50000))) * (1 / 50000) := by
  have key : ∀ m : ℝ, ∑ r, (g r - m) * (g r - m) = (∑ r, g r * g r) - 2 * m * (∑ r, g r) + 50000 * (m * m) := by
    intro m
    have hexp : ∀ r, (g r - m) * (g r - m) = g r * g r - 2 * m * g r + m * m := fun r => by ring
    simp only [hexp, Finset.sum_add_distrib, Finset.sum_sub_distrib, ← Finset.mul_sum, Finset.sum_const,
      Finset.card_univ, Fintype.card_fin, nsmul_eq_mul]
    push_cast
    ring
  rw [key]
  ring

/-- THE ONE LAW THAT JOINS THE TWO PROGRAMS. For 50000 rows of real numbers, the mean of the squares less the square of
    the mean is the mean of the squared deviations: Σ(f − μ)²/n = Σf²/n − μ², with μ = Σf/n and n the row count. It needs
    the entries real (distributivity fails at the infinities) and n equal to the number of rows. -/
theorem varMoments_eq_varCentred {C : Nat} (f : Fin 50000 → Fin C → EReal) (hf : ∀ r c, IsReal (f r c)) :
    varMoments f = varCentred f := by
  funext c
  -- real witnesses for every entry
  choose g hg using hf
  obtain rfl : f = fun r c => (g r c : EReal) := by
    funext r c
    exact hg r c
  have h5 : (50000 : ℝ) ≠ 0 := by norm_num
  -- the column mean is the real number (Σ_r g r c) · (1/50000)
  have hmean : meanOf (fun r c => (g r c : EReal)) c = (((∑ r, g r c) * (1 / 50000) : ℝ) : EReal) := by
    rw [meanOf, colSum, cN_eq, Ideal.div_coe h5, ← coe_finset_sum, ← EReal.coe_mul]
  -- both variances are images of real numbers; the identity is then the one in the reals
  simp only [varMoments, varCentred, colSum]
  simp only [hmean, cN_eq, Ideal.div_coe h5]
  simp only [← EReal.coe_mul, ← EReal.coe_sub, ← coe_finset_sum]
  rw [real_var_identity fun r => g r c]

/-- The whole computation does not depend on which of the two variance formulas is used, when the first layer's inputs are
    real and the first aggregation keeps real entries real. -/
theorem outWith_moments_eq_centred {D C E : Nat} (A₁ : Arr2 50000 C → Arr2 50000 C) (A₂ : Arr2 50000 E → Arr2 50000 E)
    (hA₁ : ∀ a, (∀ i, IsReal (a i)) → ∀ i, IsReal (A₁ a i))
    (x : Arr2 50000 D) (W₁ : Arr2 D C) (b₁ gamma beta : Fin C → EReal) (W₂ : Arr2 C E) (b₂ : Fin E → EReal)
    (hx : ∀ i, IsReal (x i)) (hW₁ : ∀ i, IsReal (W₁ i)) (hb₁ : ∀ c, IsReal (b₁ c)) :
    outWith varMoments A₁ A₂ x W₁ b₁ gamma beta W₂ b₂ = outWith varCentred A₁ A₂ x W₁ b₁ gamma beta W₂ b₂ := by
  -- the first layer's output A₁ (x · W₁) + b₁ has real entries, so its two variances agree
  have hvar : varMoments (addBias (A₁ (mm x W₁)) b₁) = varCentred (addBias (A₁ (mm x W₁)) b₁) :=
    varMoments_eq_varCentred _ (addBias_isReal _ _ (hA₁ _ (mm_isReal x W₁ hx hW₁)) hb₁)
  unfold outWith hiddenWith
  rw [hvar]

end Cert.Spec

end
-- ==== Proof.PreReal.lean ====
import proofs.«181567_j39247411151462_1_alg».proof.Defs
import proofs.«181567_j39247411151462_1_alg».proof.Proof.Gen.Pre_finite_inputs
import proofs.«181567_j39247411151462_1_alg».proof.Proof.Gen.KernelIdeal
import proofs.«181567_j39247411151462_1_alg».proof.Proof.Algebra
import Idealize.ShloMosaic.Lib.ReduceAll
import Idealize.ShloMosaic.Lib.ValueIdx

noncomputable section

namespace Cert.KernelIdeal.Val

open Cert.KernelIdeal Idealize.ShloMosaic Idealize.ShloMosaic.TcCoe Idealize.SL.Sem Idealize.ShloMosaic.ValueIdx

/-- The shape of a scalar has exactly one index: the empty tuple of coordinates. -/
instance subsingleton_scalar_idx : Subsingleton Cert.Pre_finite_inputs.S_.Idx :=
  ⟨fun a b => funext fun d => d.elim0⟩

/-- A one-bit word made from a Boolean is the word 1 exactly when the Boolean is true. -/
theorem ofBool_eq_one_iff (b : Bool) : BitVec.ofBool b = 1#1 ↔ b = true := by cases b <;> decide

/-- The f32 word 0x7F800000 (sign 0, exponent all ones, significand 0) denotes +∞. -/
theorem inf_word : Ideal.ofBits .f32 0x7F800000#32 = (⊤ : EReal) := by
  simp [Ideal.ofBits, Ideal.ieee]

/-- An extended real whose absolute value max x (-x) lies strictly below +∞ is a real number: at x = +∞ the maximum is
    +∞ itself, and at x = -∞ it is -(-∞) = +∞, so neither infinity passes the test. -/
theorem isReal_of_abs_lt_top (x : EReal) (hx : max x (-x) < (⊤ : EReal)) : Cert.Spec.IsReal x := by
  induction x using EReal.rec with
  | bot => simp at hx
  | coe r => exact ⟨r, rfl⟩
  | top => simp at hx

/-- One conjunct of the precondition, read back: if the test "|x| < +∞ at every entry", reduced by `and` over all axes,
    came out 1, then every entry of x is a real number. A reduction by `and` into a single result that is 1 had a 1 at
    every index; at an index the broadcast bound is the word of +∞, the absolute value is max x (-x), and the comparison
    is the strict order of the extended reals. -/
theorem isReal_of_all_abs_lt {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant Cert.Pre_finite_inputs.S_ FTy.f32 0x7F800000#32)))
          (constantI Cert.Pre_finite_inputs.S_ 1 1#1) hr hu ix0 = 1#1)
    (i : s.Idx) : Cert.Spec.IsReal (x i) := by
  have hi := Host.reduce_andi_all _ _ hr hu ix0 e i
  change BitVec.ofBool (decide (max (x i) (-(x i)) < Ideal.ofBits .f32 0x7F800000#32)) = 1#1 at hi
  rw [inf_word] at hi
  exact isReal_of_abs_lt_top (x i) (of_decide_eq_true ((ofBool_eq_one_iff _).1 hi))

/-- Under the precondition (every float input finite) the node features, the first layer's weights and its bias hold
    real numbers on every device. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsReal ((m ((c.tc : Thread nD τ).loc main_arg0) : S50000x512.Idx → EReal) i))
    ∧ (∀ i, Cert.Spec.IsReal ((m ((c.tc : Thread nD τ).loc main_arg2) : S512x256.Idx → EReal) i))
    ∧ (∀ i, Cert.Spec.IsReal ((m ((c.tc : Thread nD τ).loc main_arg3) : S256.Idx → EReal) i)) := by
  have h0 := congrFun (h c) ValueIdx.ix0
  dsimp only [Cert.Pre_finite_inputs.fn, Cert.Pre_finite_inputs.fn_part1] at h0
  -- the predicate is the conjunction ((((((t0 ∧ t2) ∧ t3) ∧ t4) ∧ t5) ∧ t6) ∧ t7) of one all-entries test per float
  -- input; a conjunction of one-bit words is 1 exactly when both are: peel t7, t6, t5, t4 and keep t0, t2, t3
  obtain ⟨h6, _⟩ := IntOp.andi_eq_one.1 h0
  obtain ⟨h5, _⟩ := IntOp.andi_eq_one.1 h6
  obtain ⟨h4, _⟩ := IntOp.andi_eq_one.1 h5
  obtain ⟨h3, _⟩ := IntOp.andi_eq_one.1 h4
  obtain ⟨h2, e3⟩ := IntOp.andi_eq_one.1 h3
  obtain ⟨e0, e2⟩ := IntOp.andi_eq_one.1 h2
  exact ⟨isReal_of_all_abs_lt _ _ _ _ e0, isReal_of_all_abs_lt _ _ _ _ e2, isReal_of_all_abs_lt _ _ _ _ e3⟩

end Cert.KernelIdeal.Val

end
-- ==== Proof.Bridge.lean ====
import proofs.«181567_j39247411151462_1_alg».proof.Proof.KernelHost
import proofs.«181567_j39247411151462_1_alg».proof.Proof.RefValue
import proofs.«181567_j39247411151462_1_alg».proof.Proof.Algebra

set_option maxRecDepth 16384

noncomputable section

namespace Cert.Proof.Bridge

open Idealize.ShloMosaic Idealize.ShloMosaic.ValueIdx

/-- The first neighbour aggregation is spelt by the same operations in the two programs: one function of the edge list
    and the array aggregated. -/
theorem agg1_eq (e : Cert.KernelIdeal.S2x800000.Idx → BitVec 32) :
    Cert.ReferenceIdeal.RefValue.agg1 e = Cert.KernelIdeal.Val.agg1 e := by
  funext h
  unfold Cert.ReferenceIdeal.RefValue.agg1 Cert.KernelIdeal.Val.agg1
  rfl

/-- The second neighbour aggregation likewise. -/
theorem agg2_eq (e : Cert.KernelIdeal.S2x800000.Idx → BitVec 32) :
    Cert.ReferenceIdeal.RefValue.agg2 e = Cert.KernelIdeal.Val.agg2 e := by
  funext h
  unfold Cert.ReferenceIdeal.RefValue.agg2 Cert.KernelIdeal.Val.agg2
  rfl

/-- The first aggregation keeps real entries real: it adds finitely many entries of its operand into a zero array. -/
theorem agg1_isReal (e : Cert.KernelIdeal.S2x800000.Idx → BitVec 32) (a : Cert.Spec.Arr2 50000 256)
    (ha : ∀ i, Cert.Spec.IsReal (a i)) : ∀ i, Cert.Spec.IsReal (Cert.KernelIdeal.Val.agg1 e a i) := by
  unfold Cert.KernelIdeal.Val.agg1
  refine Cert.Spec.scatterAdd_gather_isReal _ _ _ a (fun i => ⟨0, ?_⟩) ha _ _
  show Ideal.ofBits .f32 0x00000000#32 = _
  rw [Ideal.ofBits_zero_f32, EReal.coe_zero]

end Cert.Proof.Bridge

end
-- ==== Proof.lean ====
/-
  The certificate of a two-layer graph convolution — x · W₁, aggregated over the edges, plus a bias; a batch
  normalisation over the 50000 nodes with a clamp at zero; a second product, aggregation and bias; each row divided
  by its Euclidean norm (floored) — computed by five tiled kernels with host code between them, against the same
  computation written as whole-array operations.

  At the ideal instance every float is an extended real and every operation exact, so a tiled product is the
  whole product, a column sum accumulated over 25 blocks of 2000 rows is the column sum, and the two programs apply
  the same arithmetic in the same order everywhere but one place: the kernel's host code takes the variance of a
  column as E[h²] − (E h)², the reference as E[(h − E h)²]. Over real numbers, with the mean taken over exactly
  the number of rows, these are one number; the entries ARE real because the inputs are finite (the precondition),
  a product of finite matrices is finite, and the aggregation adds finitely many finite entries. The aggregation
  itself (a gather by the edges' sources, then a scatter-add by their targets) is the same map in both programs
  and is never opened.

  Frames: the kernel programs' by their generated frame certificates, the reference's by its generated run.
-/
import proofs.«181567_j39247411151462_1_alg».proof.Defs
import proofs.«181567_j39247411151462_1_alg».proof.Proof.Gen.Kernel.Frame
import proofs.«181567_j39247411151462_1_alg».proof.Proof.Gen.KernelIdeal.Frame
import proofs.«181567_j39247411151462_1_alg».proof.Proof.Gen.ReferenceIdeal.Run
import proofs.«181567_j39247411151462_1_alg».proof.Proof.Gen.ReferenceIdeal.Read
import proofs.«181567_j39247411151462_1_alg».proof.Proof.Gen.Pre_finite_inputs
import proofs.«181567_j39247411151462_1_alg».proof.Proof.KernelRun
import proofs.«181567_j39247411151462_1_alg».proof.Proof.KernelValue
import proofs.«181567_j39247411151462_1_alg».proof.Proof.RefValue
import proofs.«181567_j39247411151462_1_alg».proof.Proof.Algebra
import proofs.«181567_j39247411151462_1_alg».proof.Proof.PreReal
import proofs.«181567_j39247411151462_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the same array: the
    kernel's is the shared computation with the variance as mean of squares less squared mean, the reference's the
    same with the variance as mean of squared deviations, and on real features the two variances agree. -/
theorem algebraic : Cert.algebraic_KernelIdeal_ReferenceIdeal := by
  intro m ρ m' ρ' hpre hagree
  refine ⟨fun c => Cert.KernelIdeal.Gen.W9 m ρ c (Proc.devRef .tc Cert.KernelIdeal.main_v41),
    Cert.KernelIdeal.Val.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7⟩ := hagree c
  obtain ⟨r0, r2, r3⟩ := Cert.KernelIdeal.Val.real_of_pre m hpre c
  rw [Cert.ReferenceIdeal.Read.val_main_v62_eq, Cert.ReferenceIdeal.RefValue.result_eq, e0, e1, e2, e3, e4, e5, e6, e7,
    Cert.Proof.Bridge.agg1_eq, Cert.Proof.Bridge.agg2_eq]
  refine Eq.trans ?_ (Cert.KernelIdeal.Val.W9_v41 m ρ c).symm
  exact (Cert.Spec.outWith_moments_eq_centred _ _ (Cert.Proof.Bridge.agg1_isReal _) _ _ _ _ _ _ _ r0 r2 (fun q => r3 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
